-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x16 : Shape := ⟨2, ![1000000, 16]⟩
abbrev S2x4000000 : Shape := ⟨2, ![2, 4000000]⟩
abbrev S4000000 : Shape := ⟨1, ![4000000]⟩
abbrev S1000000x32 : Shape := ⟨2, ![1000000, 32]⟩
abbrev S16x128 : Shape := ⟨2, ![16, 128]⟩
abbrev S128 : Shape := ⟨1, ![128]⟩
abbrev S32x128 : Shape := ⟨2, ![32, 128]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S1000000x16 : S_.BroadcastsInDim S1000000x16 (![] : Fin 0 → Fin S1000000x16.rank)
  reducesTo_S1000000x16_S_d0_1 : S1000000x16.ReducesTo [0, 1] S_
  h_S_ : 0 < S_.numel
  bcast_S_S4000000 : S_.BroadcastsInDim S4000000 (![] : Fin 0 → Fin S4000000.rank)
  reducesTo_S4000000_S_d0 : S4000000.ReducesTo [0] S_
  bcast_S_S1000000x32 : S_.BroadcastsInDim S1000000x32 (![] : Fin 0 → Fin S1000000x32.rank)
  reducesTo_S1000000x32_S_d0_1 : S1000000x32.ReducesTo [0, 1] S_
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S32 .f32) (main_arg16 : FVec F S32x1 .f32) (main_arg17 : FVec F S1 .f32) (main_v63 : IVec S_ 1) (main_v67 : IVec S_ 1) : IVec S_ 1 :=
  let main_v68 : IVec S_ 1 := andi main_v63 main_v67
  let main_v69 : FVec F S32 .f32 := Host.absf main_arg15
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32x1 .f32 := Host.absf main_arg16
  let main_cst_28 : FVec F S_ .f32 := constant S_ .f32 0x7F800000#32
  let main_v75 : FVec F S32x1 .f32 := broadcastInDim S32x1 ![] bcast_S_S32x1 main_cst_28
  let main_v76 : IVec S32x1 1 := cmpf .olt main_v74 main_v75
  let main_c_29 : IVec S_ 1 := constantI S_ 1 1#1
  let main_v77 : IVec S_ 1 := (fun x v => Host.reduce IntOp.andi x v reducesTo_S32x1_S_d0_1 h_S_) main_v76 main_c_29
  let main_v78 : IVec S_ 1 := andi main_v73 main_v77
  let main_v79 : FVec F S1 .f32 := Host.absf main_arg17
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg12 : FVec F S32 .f32) (main_arg13 : FVec F S32 .f32) (main_arg14 : FVec F S32 .f32) (main_arg15 : FVec F S32 .f32) (main_arg16 : FVec F S32x1 .f32) (main_arg17 : FVec F S1 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32 .f32 := Host.absf main_arg12
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32 .f32 := Host.absf main_arg13
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32 .f32 := Host.absf main_arg14
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg15 main_arg16 main_arg17 main_v63 main_v67

def fn_part2 {F : FTy → Type} [FloatOps F] (main_arg8 : FVec F S128 .f32) (main_arg9 : FVec F S32 .f32) (main_arg10 : FVec F S32 .f32) (main_arg11 : FVec F S32 .f32) (main_arg12 : FVec F S32 .f32) (main_arg13 : FVec F S32 .f32) (main_arg14 : FVec F S32 .f32) (main_arg15 : FVec F S32 .f32) (main_arg16 : FVec F S32x1 .f32) (main_arg17 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32 .f32 := Host.absf main_arg11
  let main_cst_18 : FVec F S_ .f32 := constant S_ .f32 0x7F800000#32
  let main_v50 : FVec F S32 .f32 := broadcastInDim S32 ![] bcast_S_S32 main_cst_18
  fn_part3 (F := F) main_arg12 main_arg13 main_arg14 main_arg15 main_arg16 main_arg17 main_v48 main_v49 main_v50

def fn_part1 {F : FTy → Type} [FloatOps F] (main_arg5 : FVec F S16x128 .f32) (main_arg6 : FVec F S128 .f32) (main_arg7 : FVec F S32x128 .f32) (main_arg8 : FVec F S128 .f32) (main_arg9 : FVec F S32 .f32) (main_arg10 : FVec F S32 .f32) (main_arg11 : FVec F S32 .f32) (main_arg12 : FVec F S32 .f32) (main_arg13 : FVec F S32 .f32) (main_arg14 : FVec F S32 .f32) (main_arg15 : FVec F S32 .f32) (main_arg16 : FVec F S32x1 .f32) (main_arg17 : FVec F S1 .f32) (main_v13 : IVec S_ 1) (main_v16 : IVec S1000000x32 1) : IVec S_ 1 :=
  let main_c_5 : IVec S_ 1 := constantI S_ 1 1#1
  let main_v17 : IVec S_ 1 := (fun x v => Host.reduce IntOp.andi x v reducesTo_S1000000x32_S_d0_1 h_S_) main_v16 main_c_5
  let main_v18 : IVec S_ 1 := andi main_v13 main_v17
  let main_v19 : FVec F S16x128 .f32 := Host.absf main_arg5
  let main_cst_6 : FVec F S_ .f32 := constant S_ .f32 0x7F800000#32
  let main_v20 : FVec F S16x128 .f32 := broadcastInDim S16x128 ![] bcast_S_S16x128 main_cst_6
  let main_v21 : IVec S16x128 1 := cmpf .olt main_v19 main_v20
  let main_c_7 : IVec S_ 1 := constantI S_ 1 1#1
  let main_v22 : IVec S_ 1 := (fun x v => Host.reduce IntOp.andi x v reducesTo_S16x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S32x128 .f32 := Host.absf main_arg7
  let main_cst_10 : FVec F S_ .f32 := constant S_ .f32 0x7F800000#32
  let main_v30 : FVec F S32x128 .f32 := broadcastInDim S32x128 ![] bcast_S_S32x128 main_cst_10
  let main_v31 : IVec S32x128 1 := cmpf .olt main_v29 main_v30
  let main_c_11 : IVec S_ 1 := constantI S_ 1 1#1
  let main_v32 : IVec S_ 1 := (fun x v => Host.reduce IntOp.andi x v reducesTo_S32x128_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S1000000x16 .f32) (main_arg1 : IVec S2x4000000 32) (main_arg2 : FVec F S4000000 .f32) (main_arg3 : FVec F S1000000x32 .f32) (main_arg4 : FVec F S1000000x32 .f32) (main_arg5 : FVec F S16x128 .f32) (main_arg6 : FVec F S128 .f32) (main_arg7 : FVec F S32x128 .f32) (main_arg8 : FVec F S128 .f32) (main_arg9 : FVec F S32 .f32) (main_arg10 : FVec F S32 .f32) (main_arg11 : FVec F S32 .f32) (main_arg12 : FVec F S32 .f32) (main_arg13 : FVec F S32 .f32) (main_arg14 : FVec F S32 .f32) (main_arg15 : FVec F S32 .f32) (main_arg16 : FVec F S32x1 .f32) (main_arg17 : FVec F S1 .f32) : IVec S_ 1 :=
  let main_v0 : FVec F S1000000x16 .f32 := Host.absf main_arg0
  let main_cst : FVec F S_ .f32 := constant S_ .f32 0x7F800000#32
  let main_v1 : FVec F S1000000x16 .f32 := broadcastInDim S1000000x16 ![] bcast_S_S1000000x16 main_cst
  let main_v2 : IVec S1000000x16 1 := cmpf .olt main_v0 main_v1
  let main_c : IVec S_ 1 := constantI S_ 1 1#1
  let main_v3 : IVec S_ 1 := (fun x v => Host.reduce IntOp.andi x v reducesTo_S1000000x16_S_d0_1 h_S_) main_v2 main_c
  let main_v4 : FVec F S4000000 .f32 := Host.absf main_arg2
  let main_cst_0 : FVec F S_ .f32 := constant S_ .f32 0x7F800000#32
  let main_v5 : FVec F S4000000 .f32 := broadcastInDim S4000000 ![] bcast_S_S4000000 main_cst_0
  let main_v6 : IVec S4000000 1 := cmpf .olt main_v4 main_v5
  let main_c_1 : IVec S_ 1 := constantI S_ 1 1#1
  let main_v7 : IVec S_ 1 := (fun x v => Host.reduce IntOp.andi x v reducesTo_S4000000_S_d0 h_S_) main_v6 main_c_1
  let main_v8 : IVec S_ 1 := andi main_v3 main_v7
  let main_v9 : FVec F S1000000x32 .f32 := Host.absf main_arg3
  let main_cst_2 : FVec F S_ .f32 := constant S_ .f32 0x7F800000#32
  let main_v10 : FVec F S1000000x32 .f32 := broadcastInDim S1000000x32 ![] bcast_S_S1000000x32 main_cst_2
  let main_v11 : IVec S1000000x32 1 := cmpf .olt main_v9 main_v10
  let main_c_3 : IVec S_ 1 := constantI S_ 1 1#1
  let main_v12 : IVec S_ 1 := (fun x v => Host.reduce IntOp.andi x v reducesTo_S1000000x32_S_d0_1 h_S_) main_v11 main_c_3
  let main_v13 : IVec S_ 1 := andi main_v8 main_v12
  let main_v14 : FVec F S1000000x32 .f32 := Host.absf main_arg4
  let main_cst_4 : FVec F S_ .f32 := constant S_ .f32 0x7F800000#32
  let main_v15 : FVec F S1000000x32 .f32 := broadcastInDim S1000000x32 ![] bcast_S_S1000000x32 main_cst_4
  let main_v16 : IVec S1000000x32 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S1000000x16 : Shape := ⟨2, ![1000000, 16]⟩
abbrev S2x4000000 : Shape := ⟨2, ![2, 4000000]⟩
abbrev S4000000 : Shape := ⟨1, ![4000000]⟩
abbrev S1000000x32 : Shape := ⟨2, ![1000000, 32]⟩
abbrev S16x128 : Shape := ⟨2, ![16, 128]⟩
abbrev S128 : Shape := ⟨1, ![128]⟩
abbrev S32x128 : Shape := ⟨2, ![32, 128]⟩
abbrev S32 : Shape := ⟨1, ![32]⟩
abbrev S32x1 : Shape := ⟨2, ![32, 1]⟩
abbrev S1 : Shape := ⟨1, ![1]⟩
abbrev S1x128 : Shape := ⟨2, ![1, 128]⟩
abbrev S1x32 : Shape := ⟨2, ![1, 32]⟩
abbrev S1x1 : Shape := ⟨2, ![1, 1]⟩
abbrev S1000000x1 : Shape := ⟨2, ![1000000, 1]⟩
abbrev S4000x16 : Shape := ⟨2, ![4000, 16]⟩
abbrev S4000x32 : Shape := ⟨2, ![4000, 32]⟩
abbrev S4000x1 : Shape := ⟨2, ![4000, 1]⟩
abbrev S4000x128 : Shape := ⟨2, ![4000, 128]⟩

abbrev nBuf : Space → Nat
  | .hbm => 31
  | .vmem => 25
  | .smem => 0
  | _ => 0

abbrev bufTy : (tb : Table) → Fin (tcTables nBuf tb) → BufTy
  | .hbm, ⟨0, _⟩ => ⟨S1000000x16, .f32⟩
  | .hbm, ⟨1, _⟩ => ⟨S2x4000000, .i32⟩
  | .hbm, ⟨2, _⟩ => ⟨S4000000, .f32⟩
  | .hbm, ⟨3, _⟩ => ⟨S1000000x32, .f32⟩
  | .hbm, ⟨4, _⟩ => ⟨S1000000x32, .f32⟩
  | .hbm, ⟨5, _⟩ => ⟨S16x128, .f32⟩
  | .hbm, ⟨6, _⟩ => ⟨S128, .f32⟩
  | .hbm, ⟨7, _⟩ => ⟨S32x128, .f32⟩
  | .hbm, ⟨8, _⟩ => ⟨S128, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S32, .f32⟩
  | .hbm, ⟨15, _⟩ => ⟨S32, .f32⟩
  | .hbm, ⟨16, _⟩ => ⟨S32x1, .f32⟩
  | .hbm, ⟨17, _⟩ => ⟨S1, .f32⟩
  | .hbm, ⟨18, _⟩ => ⟨S1x128, .f32⟩
  | .hbm, ⟨19, _⟩ => ⟨S1x128, .f32⟩
  | .hbm, ⟨20, _⟩ => ⟨S1x32, .f32⟩
  | .hbm, ⟨21, _⟩ => ⟨S1x32, .f32⟩
  | .hbm, ⟨22, _⟩ => ⟨S1x32, .f32⟩
  | .hbm, ⟨23, _⟩ => ⟨S1x32, .f32⟩
  | .hbm, ⟨24, _⟩ => ⟨S1x32, .f32⟩
  | .hbm, ⟨25, _⟩ => ⟨S1x32, .f32⟩
  | .hbm, ⟨26, _⟩ => ⟨S1x32, .f32⟩
  | .hbm, ⟨27, _⟩ => ⟨S1x1, .f32⟩
  | .hbm, ⟨28, _⟩ => ⟨S1000000x1, .f32⟩
  | .hbm, ⟨29, _⟩ => ⟨S1000000x32, .f32⟩
  | .hbm, ⟨30, _⟩ => ⟨S1000000x32, .f32⟩
  | .local _ .vmem, ⟨0, _⟩ => ⟨S4000x16, .f32⟩
  | .local _ .vmem, ⟨1, _⟩ => ⟨S4000x16, .f32⟩
  | .local _ .vmem, ⟨2, _⟩ => ⟨S4000x32, .f32⟩
  | .local _ .vmem, ⟨3, _⟩ => ⟨S4000x32, .f32⟩
  | .local _ .vmem, ⟨4, _⟩ => ⟨S4000x32, .f32⟩
  | .local _ .vmem, ⟨5, _⟩ => ⟨S4000x32, .f32⟩
  | .local _ .vmem, ⟨6, _⟩ => ⟨S16x128, .f32⟩
  | .local _ .vmem, ⟨7, _⟩ => ⟨S1x128, .f32⟩
  | .local _ .vmem, ⟨8, _⟩ => ⟨S32x128, .f32⟩
  | .local _ .vmem, ⟨9, _⟩ => ⟨S1x128, .f32⟩
  | .local _ .vmem, ⟨10, _⟩ => ⟨S1x32, .f32⟩
  | .local _ .vmem, ⟨11, _⟩ => ⟨S1x32, .f32⟩
  | .local _ .vmem, ⟨12, _⟩ => ⟨S1x32, .f32⟩
  | .local _ .vmem, ⟨13, _⟩ => ⟨S1x32, .f32⟩
  | .local _ .vmem, ⟨14, _⟩ => ⟨S1x32, .f32⟩
  | .local _ .vmem, ⟨15, _⟩ => ⟨S1x32, .f32⟩
  | .local _ .vmem, ⟨16, _⟩ => ⟨S1x32, .f32⟩
  | .local _ .vmem, ⟨17, _⟩ => ⟨S32x1, .f32⟩
  | .local _ .vmem, ⟨18, _⟩ => ⟨S1x1, .f32⟩
  | .local _ .vmem, ⟨19, _⟩ => ⟨S4000x1, .f32⟩
  | .local _ .vmem, ⟨20, _⟩ => ⟨S4000x1, .f32⟩
  | .local _ .vmem, ⟨21, _⟩ => ⟨S4000x32, .f32⟩
  | .local _ .vmem, ⟨22, _⟩ => ⟨S4000x32, .f32⟩
  | .local _ .vmem, ⟨23, _⟩ => ⟨S4000x32, .f32⟩
  | .local _ .vmem, ⟨24, _⟩ => ⟨S4000x32, .f32⟩
  | _, _ => ⟨S1000000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10_0 : Ref sig .tc := ⟨.hbm, 28, rfl⟩
abbrev main_v10_1 : Ref sig .tc := ⟨.hbm, 29, rfl⟩
abbrev main_v10_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S32x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S4000x1 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S4000x32 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S4000x32 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

class Facts₀ : Prop where
  shapeCasts_S128_S1x128 : S128.ShapeCasts S1x128
  shapeCasts_S32_S1x32 : S32.ShapeCasts S1x32
  shapeCasts_S1_S1x1 : S1.ShapeCasts S1x1
  inb_S4000x16_S4000x16_0_0 : ∀ a, (![0, 0] : Fin 2 → Nat) a + S4000x16.size a ≤ S4000x16.size a
  h_S4000x16 : 0 < S4000x16.numel
  bitsLt_bf16_f32 : FTy.bits .bf16 < FTy.bits .f32
  inb_S4000x32_S4000x32_0_0 : ∀ a, (![0, 0] : Fin 2 → Nat) a + S4000x32.size a ≤ S4000x32.size a
  h_S4000x32 : 0 < S4000x32.numel
  inb_S16x128_S16x128_0_0 : ∀ a, (![0, 0] : Fin 2 → Nat) a + S16x128.size a ≤ S16x128.size a
  h_S16x128 : 0 < S16x128.numel
  inb_S32x128_S32x128_0_0 : ∀ a, (![0, 0] : Fin 2 → Nat) a + S32x128.size a ≤ S32x128.size a
  h_S32x128 : 0 < S32x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  slices_S4000x128_o0_0_S4000x32 : S4000x128.Slices ![0, 0] S4000x32
  slices_S4000x128_o0_32_S4000x32 : S4000x128.Slices ![0, 32] S4000x32
  slices_S4000x128_o0_64_S4000x32 : S4000x128.Slices ![0, 64] S4000x32
  slices_S4000x128_o0_96_S4000x32 : S4000x128.Slices ![0, 96] S4000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  dot_S4000x16_S16x128_S4000x128_1_0_0_1_n_n_wf : DotDims.WF S4000x16 S16x128 S4000x128 [1] [0] [0] [1] [] []
  dot_S4000x32_S32x128_S4000x128_1_0_0_1_n_n_wf : DotDims.WF S4000x32 S32x128 S4000x128 [1] [0] [0] [1] [] []
  dot_S4000x32_S32x1_S4000x1_1_0_0_1_n_n_wf : DotDims.WF S4000x32 S32x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x16.size a ≤ S1000000x16.size a
  hwx0_0 : ∀ i : grid0.Coords, EltTy.bits .f32 = 32 ∨ (Rect.block (s := S1000000x16) S4000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x32.size a ≤ S1000000x32.size a
  hwx0_1 : ∀ i : grid0.Coords, EltTy.bits .f32 = 32 ∨ (Rect.block (s := S1000000x32) S4000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x32.size a ≤ S1000000x32.size a
  hwx0_2 : ∀ i : grid0.Coords, EltTy.bits .f32 = 32 ∨ (Rect.block (s := S1000000x32) S4000x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x128.size a ≤ S16x128.size a
  hwx0_3 : ∀ i : grid0.Coords, EltTy.bits .f32 = 32 ∨ (Rect.block (s := S16x128) S16x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x128.size a ≤ S32x128.size a
  hwx0_5 : ∀ i : grid0.Coords, EltTy.bits .f32 = 32 ∨ (Rect.block (s := S32x128) S32x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x32.size a ≤ S1x32.size a
  hwx0_9 : ∀ i : grid0.Coords, EltTy.bits .f32 = 32 ∨ (Rect.block (s := S1x32) S1x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x32.size a ≤ S1x32.size a
  hwx0_10 : ∀ i : grid0.Coords, EltTy.bits .f32 = 32 ∨ (Rect.block (s := S1x32) S1x32.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x32.size a ≤ S1x32.size a
  hwx0_11 : ∀ i : grid0.Coords, EltTy.bits .f32 = 32 ∨ (Rect.block (s := S1x32) S1x32.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x32.size a ≤ S1x32.size a
  hwx0_12 : ∀ i : grid0.Coords, EltTy.bits .f32 = 32 ∨ (Rect.block (s := S1x32) S1x32.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x32.size a ≤ S1x32.size a
  hwx0_13 : ∀ i : grid0.Coords, EltTy.bits .f32 = 32 ∨ (Rect.block (s := S1x32) S1x32.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S32x1.size a ≤ S32x1.size a
  hwx0_14 : ∀ i : grid0.Coords, EltTy.bits .f32 = 32 ∨ (Rect.block (s := S32x1) S32x1.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x1.size a ≤ S1x1.size a
  hwx0_15 : ∀ i : grid0.Coords, EltTy.bits .f32 = 32 ∨ (Rect.block (s := S1x1) S1x1.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S4000x1.size a ≤ S1000000x1.size a
  hwx0_16 : ∀ i : grid0.Coords, EltTy.bits .f32 = 32 ∨ (Rect.block (s := S1000000x1) S4000x1.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S4000x32.size a ≤ S1000000x32.size a
  hwx0_17 : ∀ i : grid0.Coords, EltTy.bits .f32 = 32 ∨ (Rect.block (s := S1000000x32) S4000x32.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S4000x32.size a ≤ S1000000x32.size a
  hwx0_18 : ∀ i : grid0.Coords, EltTy.bits .f32 = 32 ∨ (Rect.block (s := S1000000x32) S4000x32.size (cc0_transform_18 i) (hinb0_18 i)).WholeWords (EltTy.packing .f32)

variable [Facts₀]

def dot_S4000x16_S16x128_S4000x128_1_0_0_1_n_n : DotDims S4000x16 S16x128 S4000x128 where
  lhsContracting := [1]
  rhsContracting := [0]
  lhsNonContracting := [0]
  rhsNonContracting := [1]
  lhsBatch := []
  rhsBatch := []
  wf := dot_S4000x16_S16x128_S4000x128_1_0_0_1_n_n_wf
def dot_S4000x32_S32x128_S4000x128_1_0_0_1_n_n : DotDims S4000x32 S32x128 S4000x128 where
  lhsContracting := [1]
  rhsContracting := [0]
  lhsNonContracting := [0]
  rhsNonContracting := [1]
  lhsBatch := []
  rhsBatch := []
  wf := dot_S4000x32_S32x128_S4000x128_1_0_0_1_n_n_wf
def dot_S4000x32_S32x1_S4000x1_1_0_0_1_n_n : DotDims S4000x32 S32x1 S4000x1 where
  lhsContracting := [1]
  rhsContracting := [0]
  lhsNonContracting := [0]
  rhsNonContracting := [1]
  lhsBatch := []
  rhsBatch := []
  wf := dot_S4000x32_S32x1_S4000x1_1_0_0_1_n_n_wf

abbrev win0_0 : Pipeline.Window sig grid0 :=
  Pipeline.Window.ofSpec (Memref.whole main_arg0) S4000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S4000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S4000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S16x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S32x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S1x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S1x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S1x32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v7) S1x32.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v8) S1x32.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg16) S32x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v9) S1x1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v10_0) S4000x1.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v10_1) S4000x32.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v10_2) S4000x32.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

class Facts : Prop extends Facts₀ where

variable [Facts]
-- ==== ReferenceIdeal.lean ====
abbrev S1000000x16 : Shape := ⟨2, ![1000000, 16]⟩
abbrev S2x4000000 : Shape := ⟨2, ![2, 4000000]⟩
abbrev S4000000 : Shape := ⟨1, ![4000000]⟩
abbrev S1000000x32 : Shape := ⟨2, ![1000000, 32]⟩
abbrev S16x128 : Shape := ⟨2, ![16, 128]⟩
abbrev S128 : Shape := ⟨1, ![128]⟩
abbrev S32x128 : Shape := ⟨2, ![32, 128]⟩
abbrev S32 : Shape := ⟨1, ![32]⟩
abbrev S32x1 : Shape := ⟨2, ![32, 1]⟩
abbrev S1 : Shape := ⟨1, ![1]⟩
abbrev S1000000x128 : Shape := ⟨2, ![1000000, 128]⟩
abbrev S1x128 : Shape := ⟨2, ![1, 128]⟩
abbrev S1x32 : Shape := ⟨2, ![1, 32]⟩
abbrev S_ : Shape := ⟨0, ![]⟩
abbrev S1000000x1 : Shape := ⟨2, ![1000000, 1]⟩
abbrev S1x1 : Shape := ⟨2, ![1, 1]⟩

abbrev nBuf : Space → Nat
  | .hbm => 92
  | .vmem => 0
  | .smem => 0
  | _ => 0

abbrev bufTy : (tb : Table) → Fin (tcTables nBuf tb) → BufTy
  | .hbm, ⟨0, _⟩ => ⟨S1000000x16, .f32⟩
  | .hbm, ⟨1, _⟩ => ⟨S2x4000000, .i32⟩
  | .hbm, ⟨2, _⟩ => ⟨S4000000, .f32⟩
  | .hbm, ⟨3, _⟩ => ⟨S1000000x32, .f32⟩
  | .hbm, ⟨4, _⟩ => ⟨S1000000x32, .f32⟩
  | .hbm, ⟨5, _⟩ => ⟨S16x128, .f32⟩
  | .hbm, ⟨6, _⟩ => ⟨S128, .f32⟩
  | .hbm, ⟨7, _⟩ => ⟨S32x128, .f32⟩
  | .hbm, ⟨8, _⟩ => ⟨S128, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S32, .f32⟩
  | .hbm, ⟨15, _⟩ => ⟨S32, .f32⟩
  | .hbm, ⟨16, _⟩ => ⟨S32x1, .f32⟩
  | .hbm, ⟨17, _⟩ => ⟨S1, .f32⟩
  | .hbm, ⟨18, _⟩ => ⟨S1000000x128, .f32⟩
  | .hbm, ⟨19, _⟩ => ⟨S1x128, .f32⟩
  | .hbm, ⟨20, _⟩ => ⟨S1000000x128, .f32⟩
  | .hbm, ⟨21, _⟩ => ⟨S1000000x128, .f32⟩
  | .hbm, ⟨22, _⟩ => ⟨S1000000x128, .f32⟩
  | .hbm, ⟨23, _⟩ => ⟨S1x128, .f32⟩
  | .hbm, ⟨24, _⟩ => ⟨S1000000x128, .f32⟩
  | .hbm, ⟨25, _⟩ => ⟨S1000000x128, .f32⟩
  | .hbm, ⟨26, _⟩ => ⟨S1000000x128, .f32⟩
  | .hbm, ⟨27, _⟩ => ⟨S1000000x32, .f32⟩
  | .hbm, ⟨28, _⟩ => ⟨S1000000x32, .f32⟩
  | .hbm, ⟨29, _⟩ => ⟨S1000000x32, .f32⟩
  | .hbm, ⟨30, _⟩ => ⟨S1000000x32, .f32⟩
  | .hbm, ⟨31, _⟩ => ⟨S1x32, .f32⟩
  | .hbm, ⟨32, _⟩ => ⟨S1000000x32, .f32⟩
  | .hbm, ⟨33, _⟩ => ⟨S1000000x32, .f32⟩
  | .hbm, ⟨34, _⟩ => ⟨S1000000x32, .f32⟩
  | .hbm, ⟨35, _⟩ => ⟨S1x32, .f32⟩
  | .hbm, ⟨36, _⟩ => ⟨S1000000x32, .f32⟩
  | .hbm, ⟨37, _⟩ => ⟨S1000000x32, .f32⟩
  | .hbm, ⟨38, _⟩ => ⟨S1000000x32, .f32⟩
  | .hbm, ⟨39, _⟩ => ⟨S1000000x32, .f32⟩
  | .hbm, ⟨40, _⟩ => ⟨S_, .f32⟩
  | .hbm, ⟨41, _⟩ => ⟨S1000000x32, .f32⟩
  | .hbm, ⟨42, _⟩ => ⟨S1000000x32, .f32⟩
  | .hbm, ⟨43, _⟩ => ⟨S_, .f32⟩
  | .hbm, ⟨44, _⟩ => ⟨S1000000x32, .f32⟩
  | .hbm, ⟨45, _⟩ => ⟨S1000000x32, .f32⟩
  | .hbm, ⟨46, _⟩ => ⟨S1x32, .f32⟩
  | .hbm, ⟨47, _⟩ => ⟨S1000000x32, .f32⟩
  | .hbm, ⟨48, _⟩ => ⟨S1000000x32, .f32⟩
  | .hbm, ⟨49, _⟩ => ⟨S1000000x32, .f32⟩
  | .hbm, ⟨50, _⟩ => ⟨S1x32, .f32⟩
  | .hbm, ⟨51, _⟩ => ⟨S1000000x32, .f32⟩
  | .hbm, ⟨52, _⟩ => ⟨S1000000x32, .f32⟩
  | .hbm, ⟨53, _⟩ => ⟨S1000000x32, .f32⟩
  | .hbm, ⟨54, _⟩ => ⟨S1000000x32, .f32⟩
  | .hbm, ⟨55, _⟩ => ⟨S_, .f32⟩
  | .hbm, ⟨56, _⟩ => ⟨S1000000x32, .f32⟩
  | .hbm, ⟨57, _⟩ => ⟨S1000000x32, .f32⟩
  | .hbm, ⟨58, _⟩ => ⟨S_, .f32⟩
  | .hbm, ⟨59, _⟩ => ⟨S1000000x32, .f32⟩
  | .hbm, ⟨60, _⟩ => ⟨S1000000x32, .f32⟩
  | .hbm, ⟨61, _⟩ => ⟨S1x32, .f32⟩
  | .hbm, ⟨62, _⟩ => ⟨S1000000x32, .f32⟩
  | .hbm, ⟨63, _⟩ => ⟨S1000000x32, .f32⟩
  | .hbm, ⟨64, _⟩ => ⟨S1000000x32, .f32⟩
  | .hbm, ⟨65, _⟩ => ⟨S1000000x32, .f32⟩
  | .hbm, ⟨66, _⟩ => ⟨S1000000x32, .f32⟩
  | .hbm, ⟨67, _⟩ => ⟨S1000000x32, .f32⟩
  | .hbm, ⟨68, _⟩ => ⟨S1x32, .f32⟩
  | .hbm, ⟨69, _⟩ => ⟨S1000000x32, .f32⟩
  | .hbm, ⟨70, _⟩ => ⟨S1000000x32, .f32⟩
  | .hbm, ⟨71, _⟩ => ⟨S1000000x32, .f32⟩
  | .hbm, ⟨72, _⟩ => ⟨S1x32, .f32⟩
  | .hbm, ⟨73, _⟩ => ⟨S1000000x32, .f32⟩
  | .hbm, ⟨74, _⟩ => ⟨S1000000x32, .f32⟩
  | .hbm, ⟨75, _⟩ => ⟨S1000000x32, .f32⟩
  | .hbm, ⟨76, _⟩ => ⟨S1000000x32, .f32⟩
  | .hbm, ⟨77, _⟩ => ⟨S_, .f32⟩
  | .hbm, ⟨78, _⟩ => ⟨S1000000x32, .f32⟩
  | .hbm, ⟨79, _⟩ => ⟨S1000000x32, .f32⟩
  | .hbm, ⟨80, _⟩ => ⟨S_, .f32⟩
  | .hbm, ⟨81, _⟩ => ⟨S1000000x32, .f32⟩
  | .hbm, ⟨82, _⟩ => ⟨S1000000x32, .f32⟩
  | .hbm, ⟨83, _⟩ => ⟨S1000000x32, .f32⟩
  | .hbm, ⟨84, _⟩ => ⟨S1000000x32, .f32⟩
  | .hbm, ⟨85, _⟩ => ⟨S_, .f32⟩
  | .hbm, ⟨86, _⟩ => ⟨S1000000x32, .f32⟩
  | .hbm, ⟨87, _⟩ => ⟨S1000000x32, .f32⟩
  | .hbm, ⟨88, _⟩ => ⟨S1000000x1, .f32⟩
  | .hbm, ⟨89, _⟩ => ⟨S1x1, .f32⟩
  | .hbm, ⟨90, _⟩ => ⟨S1000000x1, .f32⟩
  | .hbm, ⟨91, _⟩ => ⟨S1000000x1, .f32⟩
  | _, _ => ⟨S1000000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst : Ref sig .tc := ⟨.hbm, 40, rfl⟩
abbrev main_v22 : Ref sig .tc := ⟨.hbm, 41, rfl⟩
abbrev main_v23 : Ref sig .tc := ⟨.hbm, 42, rfl⟩
abbrev main_cst_0 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_1 : Ref sig .tc := ⟨.hbm, 55, rfl⟩
abbrev main_v35 : Ref sig .tc := ⟨.hbm, 56, rfl⟩
abbrev main_v36 : Ref sig .tc := ⟨.hbm, 57, rfl⟩
abbrev main_cst_2 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_3 : Ref sig .tc := ⟨.hbm, 77, rfl⟩
abbrev main_v55 : Ref sig .tc := ⟨.hbm, 78, rfl⟩
abbrev main_v56 : Ref sig .tc := ⟨.hbm, 79, rfl⟩
abbrev main_cst_4 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_call0_cst : Ref sig .tc := ⟨.hbm, 85, rfl⟩
abbrev main_call0_v0 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  slices_S1000000x128_S1000000x32_0_0 : S1000000x128.Slices ![0, 0] S1000000x32
  slices_S1000000x128_S1000000x32_0_32 : S1000000x128.Slices ![0, 32] S1000000x32
  slices_S1000000x128_S1000000x32_0_64 : S1000000x128.Slices ![0, 64] S1000000x32
  slices_S1000000x128_S1000000x32_0_96 : S1000000x128.Slices ![0, 96] S1000000x32
  bcast_S32_S1x32_1 : S32.BroadcastsInDim S1x32 (![1] : Fin 1 → Fin S1x32.rank)
  bcast_S1x32_S1000000x32_0_1 : S1x32.BroadcastsInDim S1000000x32 (![0, 1] : Fin 2 → Fin S1000000x32.rank)
  bcast_S_S1000000x32 : S_.BroadcastsInDim S1000000x32 (![] : Fin 0 → Fin S1000000x32.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  dot_S1000000x16_S16x128_S1000000x128_1_0_0_1_n_n_wf : DotDims.WF S1000000x16 S16x128 S1000000x128 [1] [0] [0] [1] [] []
  dot_S1000000x32_S32x128_S1000000x128_1_0_0_1_n_n_wf : DotDims.WF S1000000x32 S32x128 S1000000x128 [1] [0] [0] [1] [] []
  dot_S1000000x32_S32x1_S1000000x1_1_0_0_1_n_n_wf : DotDims.WF S1000000x32 S32x1 S1000000x1 [1] [0] [0] [1] [] []

variable [Facts₀]

def dot_S1000000x16_S16x128_S1000000x128_1_0_0_1_n_n : DotDims S1000000x16 S16x128 S1000000x128 where
  lhsContracting := [1]
  rhsContracting := [0]
  lhsNonContracting := [0]
  rhsNonContracting := [1]
  lhsBatch := []
  rhsBatch := []
  wf := dot_S1000000x16_S16x128_S1000000x128_1_0_0_1_n_n_wf
def dot_S1000000x32_S32x128_S1000000x128_1_0_0_1_n_n : DotDims S1000000x32 S32x128 S1000000x128 where
  lhsContracting := [1]
  rhsContracting := [0]
  lhsNonContracting := [0]
  rhsNonContracting := [1]
  lhsBatch := []
  rhsBatch := []
  wf := dot_S1000000x32_S32x128_S1000000x128_1_0_0_1_n_n_wf
def dot_S1000000x32_S32x1_S1000000x1_1_0_0_1_n_n : DotDims S1000000x32 S32x1 S1000000x1 where
  lhsContracting := [1]
  rhsContracting := [0]
  lhsNonContracting := [0]
  rhsNonContracting := [1]
  lhsBatch := []
  rhsBatch := []
  wf := dot_S1000000x32_S32x1_S1000000x1_1_0_0_1_n_n_wf

class Facts : Prop extends Facts₀ where

variable [Facts]
-- ==== Proof.Cell.lean ====
/-
  THE LSTM CELL UPDATE, AS ONE FUNCTION OF THE ARGUMENT ARRAYS.

  A graph-convolutional LSTM cell whose Chebyshev convolutions have order one is four dense layers side by side:
  for node r and gate column j (128 columns: input, forget, candidate and output gate, 32 each)

      pre(r, j) = (Σₖ x(r,k)·Wx(k,j) + bx(j)) + (Σₖ h(r,k)·Wh(k,j) + bh(j)),

  and with σ(z) = 1 / (1 + e^(-z)) the logistic function, for hidden unit q

      I = σ(pre(r, q)      + w_ci(q)·c(r,q) + b_i(q))
      F = σ(pre(r, 32 + q) + w_cf(q)·c(r,q) + b_f(q))
      T = tanh(pre(r, 64 + q) + b_c(q))
      C(r,q) = F·c(r,q) + I·T                               (the new cell state)
      O = σ(pre(r, 96 + q) + w_co(q)·C(r,q) + b_o(q))
      H(r,q) = O·tanh(C(r,q))                               (the new hidden state)
      out(r) = Σₖ max(H(r,k), 0)·Wl(k,0) + bl(0)            (the rectified linear head).

  Everything is read on the extended reals; the edge list and the edge weights do not enter.
  The only law used between two readings of this function is the associativity of + (which holds on the
  extended reals without any finiteness): a sum of four terms bracketed ((a + b) + c) + d or (a + b) + (c + d).
-/
import Idealize.ShloMosaic.Lib.ValueIdx
import Idealize.ShloMosaic.PureOps.Ideal

open scoped BigOperators

noncomputable section

namespace Cert.LstmCell

open Idealize.ShloMosaic Idealize.ShloMosaic.ValueIdx

/-- The sixteen arrays the cell reads: node features, hidden and cell state, the two weight matrices with their
    biases, the three peephole vectors, the four gate biases, and the head's weights and bias. -/
structure Inputs where
  x : (⟨2, ![1000000, 16]⟩ : Shape).Idx → EReal
  h : (⟨2, ![1000000, 32]⟩ : Shape).Idx → EReal
  c : (⟨2, ![1000000, 32]⟩ : Shape).Idx → EReal
  Wx : (⟨2, ![16, 128]⟩ : Shape).Idx → EReal
  bx : (⟨1, ![128]⟩ : Shape).Idx → EReal
  Wh : (⟨2, ![32, 128]⟩ : Shape).Idx → EReal
  bh : (⟨1, ![128]⟩ : Shape).Idx → EReal
  wci : (⟨1, ![32]⟩ : Shape).Idx → EReal
  wcf : (⟨1, ![32]⟩ : Shape).Idx → EReal
  wco : (⟨1, ![32]⟩ : Shape).Idx → EReal
  bi : (⟨1, ![32]⟩ : Shape).Idx → EReal
  bf : (⟨1, ![32]⟩ : Shape).Idx → EReal
  bc : (⟨1, ![32]⟩ : Shape).Idx → EReal
  bo : (⟨1, ![32]⟩ : Shape).Idx → EReal
  Wl : (⟨2, ![32, 1]⟩ : Shape).Idx → EReal
  bl : (⟨1, ![1]⟩ : Shape).Idx → EReal

/-- Column q of gate block g (g = 0, 1, 2, 3: input, forget, candidate, output) among the 128 gate columns. -/
def col (g : Fin 4) (q : Fin 32) : Fin 128 := ⟨32 * g.val + q.val, by have := g.isLt; have := q.isLt; omega⟩

/-- The four-term pre-activation, bracketed as two biased products added. -/
def pre4 (xw bx hw bh : EReal) : EReal := (xw + bx) + (hw + bh)

/-- The same four terms added one after the other are the same sum. -/
theorem pre4_eq_seq (xw bx hw bh : EReal) : ((xw + bx) + hw) + bh = pre4 xw bx hw bh := add_assoc _ _ _

/-- Gate pre-activation of node r at gate column j. -/
def pre (I : Inputs) (r : Fin 1000000) (j : Fin 128) : EReal :=
  pre4 (∑ k : Fin 16, I.x (ix2 r k) * I.Wx (ix2 k j)) (I.bx (ix1 j)) (∑ k : Fin 32, I.h (ix2 r k) * I.Wh (ix2 k j)) (I.bh (ix1 j))

/-- The new cell state from the three gate pre-activations it needs, the old state, the peepholes and biases. -/
def newCell (gi gf gc c wci wcf bi bf bc : EReal) : EReal :=
  Ideal.logistic (gf + wcf * c + bf) * c + Ideal.logistic (gi + wci * c + bi) * Ideal.tanh (gc + bc)

/-- The new hidden state from the output gate's pre-activation, its peephole on the NEW cell state, and that state. -/
def newHidden (go wco bo C : EReal) : EReal :=
  Ideal.logistic (go + wco * C + bo) * Ideal.tanh C

/-- C(r, q). -/
def cellAt (I : Inputs) (r : Fin 1000000) (q : Fin 32) : EReal :=
  newCell (pre I r (col 0 q)) (pre I r (col 1 q)) (pre I r (col 2 q)) (I.c (ix2 r q)) (I.wci (ix1 q)) (I.wcf (ix1 q))
    (I.bi (ix1 q)) (I.bf (ix1 q)) (I.bc (ix1 q))

/-- H(r, q). -/
def hidAt (I : Inputs) (r : Fin 1000000) (q : Fin 32) : EReal :=
  newHidden (pre I r (col 3 q)) (I.wco (ix1 q)) (I.bo (ix1 q)) (cellAt I r q)

/-- out(r): the head over the rectified hidden state (the zero is kept as the float word both programs print). -/
def outAt (I : Inputs) (r : Fin 1000000) : EReal :=
  (∑ k : Fin 32, max (hidAt I r k) (Ideal.ofBits .f32 0x00000000#32) * I.Wl (ix2 k (0 : Fin 1))) + I.bl (ix1 (0 : Fin 1))

/-- The three result arrays. -/
def cellArr (I : Inputs) : (⟨2, ![1000000, 32]⟩ : Shape).Idx → EReal := fun i => cellAt I (i 0) (i 1)
def hidArr (I : Inputs) : (⟨2, ![1000000, 32]⟩ : Shape).Idx → EReal := fun i => hidAt I (i 0) (i 1)
def outArr (I : Inputs) : (⟨2, ![1000000, 1]⟩ : Shape).Idx → EReal := fun i => outAt I (i 0)

/-- The float word of 1.0 is the real number one. -/
theorem ofBits_one_f32 : Ideal.ofBits .f32 0x3F800000#32 = 1 := by
  simp [Ideal.ofBits, Ideal.ieee, -EReal.coe_mul]; norm_num

/-- The logistic function spelt out with the float word of one in both places, as a host program expands it. -/
theorem logistic_expanded (z : EReal) :
    Ideal.div (Ideal.ofBits .f32 0x3F800000#32) (Ideal.ofBits .f32 0x3F800000#32 + Ideal.exp (-z)) = Ideal.logistic z := by
  rw [ofBits_one_f32]; rfl

end Cert.LstmCell

end
-- ==== Proof.RefValue.lean ====
/-
  THE REFERENCE COMPUTES THE LSTM CELL UPDATE OF `Cell.lean`.

  The reference is a straight line of array operations. Read at one node r and one hidden unit q, every stage is a
  scalar expression in the stages before it: the two matrix products are sums over k, a sliced gate block q ↦ 32·g + q
  is the gate column `col g q`, a broadcast vector is read at q alone, and 1 / (1 + e^(-z)) with the float word of
  one is the logistic function. Composing these readings stage by stage gives C(r,q), H(r,q) and out(r) literally;
  no law of arithmetic is needed beyond unfolding the definitions.
-/
import proofs.«106267_j15693810499716_1_alg».proof.Proof.Cell
import proofs.«106267_j15693810499716_1_alg».proof.Proof.Gen.ReferenceIdeal.Read

open scoped BigOperators

noncomputable section

namespace Cert.ReferenceIdeal.RefValue

open Cert.ReferenceIdeal Cert.ReferenceIdeal.Gen Cert.ReferenceIdeal.Read Idealize.ShloMosaic Idealize.ShloMosaic.ValueIdx Cert.LstmCell

/-! ### The stages at an index given by its coordinates, over the cell's inputs -/

section Stages

variable (I : Inputs) (r : Fin 1000000) (q : Fin 32)

/-- The gate pre-activation: each product is a sum over its contracted axis, each bias is read at the column. -/
theorem gate_pre (j : Fin 128) :
    val_main_v8 (F := Ideal) I.x I.h I.Wx I.bx I.Wh I.bh (ix2 r j) = pre I r j := by
  rw [val_main_v8_apply, val_main_v3_apply, val_main_v7_apply, val_main_v0_apply, val_main_v4_apply,
    val_main_v2_apply, val_main_v1_apply, val_main_v6_apply, val_main_v5_apply]
  have e0 : ∀ k, lidx_main_v0 (ix2 r j) k = ix2 r k := fun k => by
    funext a; match a with | ⟨0, _⟩ => rfl | ⟨1, _⟩ => rfl
  have e1 : ∀ k, ridx_main_v0 (ix2 r j) k = ix2 k j := fun k => by
    funext a; match a with | ⟨0, _⟩ => rfl | ⟨1, _⟩ => rfl
  have e2 : ∀ k, lidx_main_v4 (ix2 r j) k = ix2 r k := fun k => by
    funext a; match a with | ⟨0, _⟩ => rfl | ⟨1, _⟩ => rfl
  have e3 : ∀ k, ridx_main_v4 (ix2 r j) k = ix2 k j := fun k => by
    funext a; match a with | ⟨0, _⟩ => rfl | ⟨1, _⟩ => rfl
  have e4 : idx_main_v1 (idx_main_v2 (ix2 r j)) = ix1 j := by
    funext a; match a with | ⟨0, _⟩ => rfl
  have e5 : idx_main_v5 (idx_main_v6 (ix2 r j)) = ix1 j := by
    funext a; match a with | ⟨0, _⟩ => rfl
  simp only [e0, e1, e2, e3, e4, e5]
  rfl

/-- The four gate blocks are the columns 32·g + q of the pre-activation. -/
theorem block0 : val_main_v9 (F := Ideal) I.x I.h I.Wx I.bx I.Wh I.bh (ix2 r q) = pre I r (col 0 q) := by
  have e : idx_main_v9 (ix2 r q) = ix2 r (col 0 q) := by
    funext a; match a with
    | ⟨0, _⟩ => rfl
    | ⟨1, _⟩ => exact Fin.ext (by show q.val = 32 * 0 + q.val; omega)
  rw [val_main_v9_apply, e, gate_pre I r]

theorem block1 : val_main_v10 (F := Ideal) I.x I.h I.Wx I.bx I.Wh I.bh (ix2 r q) = pre I r (col 1 q) := by
  have e : idx_main_v10 (ix2 r q) = ix2 r (col 1 q) := by
    funext a; match a with
    | ⟨0, _⟩ => rfl
    | ⟨1, _⟩ => exact Fin.ext (by show 32 + q.val = 32 * 1 + q.val; omega)
  rw [val_main_v10_apply, e, gate_pre I r]

theorem block2 : val_main_v11 (F := Ideal) I.x I.h I.Wx I.bx I.Wh I.bh (ix2 r q) = pre I r (col 2 q) := by
  have e : idx_main_v11 (ix2 r q) = ix2 r (col 2 q) := by
    funext a; match a with
    | ⟨0, _⟩ => rfl
    | ⟨1, _⟩ => exact Fin.ext (by show 64 + q.val = 32 * 2 + q.val; omega)
  rw [val_main_v11_apply, e, gate_pre I r]

theorem block3 : val_main_v12 (F := Ideal) I.x I.h I.Wx I.bx I.Wh I.bh (ix2 r q) = pre I r (col 3 q) := by
  have e : idx_main_v12 (ix2 r q) = ix2 r (col 3 q) := by
    funext a; match a with
    | ⟨0, _⟩ => rfl
    | ⟨1, _⟩ => exact Fin.ext (by show 96 + q.val = 32 * 3 + q.val; omega)
  rw [val_main_v12_apply, e, gate_pre I r]

/-- A vector of 32 entries broadcast over the nodes is read at the hidden unit alone. The seven broadcasts of the
    reference (three peepholes, four biases) are this one function of the vector. -/
theorem vec_at (v : (⟨1, ![32]⟩ : Shape).Idx → EReal) : val_main_v14 (F := Ideal) v (ix2 r q) = v (ix1 q) := by
  rw [val_main_v14_apply, val_main_v13_apply]
  exact congrArg v (by funext a; match a with | ⟨0, _⟩ => rfl)

/-- The broadcast float word of one, at any index. The six of the reference are one function. -/
theorem one_at (i : S1000000x32.Idx) : val_main_v22 (F := Ideal) i = Ideal.ofBits .f32 0x3F800000#32 := by
  rw [val_main_v22_apply, val_main_cst_apply]; rfl

/-- The input gate. -/
theorem gate_i : val_main_v25 (F := Ideal) I.x I.h I.c I.Wx I.bx I.Wh I.bh I.wci I.bi (ix2 r q)
    = Ideal.logistic (pre I r (col 0 q) + I.wci (ix1 q) * I.c (ix2 r q) + I.bi (ix1 q)) := by
  rw [val_main_v25_apply, val_main_v23_apply, val_main_v21_apply, val_main_v20_apply, val_main_v19_apply,
    val_main_v16_apply, val_main_v15_apply, block0 I r q, vec_at r q I.wci,
    show val_main_v18 (F := Ideal) I.bi (ix2 r q) = I.bi (ix1 q) from vec_at r q I.bi,
    show val_main_v24 (F := Ideal) (ix2 r q) = _ from one_at _, one_at (ix2 r q)]
  exact logistic_expanded _

/-- The forget gate. -/
theorem gate_f : val_main_v38 (F := Ideal) I.x I.h I.c I.Wx I.bx I.Wh I.bh I.wcf I.bf (ix2 r q)
    = Ideal.logistic (pre I r (col 1 q) + I.wcf (ix1 q) * I.c (ix2 r q) + I.bf (ix1 q)) := by
  rw [val_main_v38_apply, val_main_v36_apply, val_main_v34_apply, val_main_v33_apply, val_main_v32_apply,
    val_main_v29_apply, val_main_v28_apply, block1 I r q,
    show val_main_v27 (F := Ideal) I.wcf (ix2 r q) = I.wcf (ix1 q) from vec_at r q I.wcf,
    show val_main_v31 (F := Ideal) I.bf (ix2 r q) = I.bf (ix1 q) from vec_at r q I.bf,
    show val_main_v37 (F := Ideal) (ix2 r q) = _ from one_at _,
    show val_main_v35 (F := Ideal) (ix2 r q) = _ from one_at _]
  exact logistic_expanded _

/-- The candidate. -/
theorem cand : val_main_v42 (F := Ideal) I.x I.h I.Wx I.bx I.Wh I.bh I.bc (ix2 r q)
    = Ideal.tanh (pre I r (col 2 q) + I.bc (ix1 q)) := by
  rw [val_main_v42_apply, val_main_v41_apply, block2 I r q,
    show val_main_v40 (F := Ideal) I.bc (ix2 r q) = I.bc (ix1 q) from vec_at r q I.bc]
  rfl

/-- The new cell state. -/
theorem cell_at : val_main_v45 (F := Ideal) I.x I.h I.c I.Wx I.bx I.Wh I.bh I.wci I.wcf I.bi I.bf I.bc (ix2 r q)
    = cellAt I r q := by
  rw [val_main_v45_apply, val_main_v43_apply, val_main_v44_apply, gate_f I r q, gate_i I r q, cand I r q]
  rfl

/-- The output gate, with its peephole on the new cell state. -/
theorem gate_o : val_main_v58 (F := Ideal) I.x I.h I.c I.Wx I.bx I.Wh I.bh I.wci I.wcf I.wco I.bi I.bf I.bc I.bo (ix2 r q)
    = Ideal.logistic (pre I r (col 3 q) + I.wco (ix1 q) * cellAt I r q + I.bo (ix1 q)) := by
  rw [val_main_v58_apply, val_main_v56_apply, val_main_v54_apply, val_main_v53_apply, val_main_v52_apply,
    val_main_v49_apply, val_main_v48_apply, block3 I r q, cell_at I r q,
    show val_main_v47 (F := Ideal) I.wco (ix2 r q) = I.wco (ix1 q) from vec_at r q I.wco,
    show val_main_v51 (F := Ideal) I.bo (ix2 r q) = I.bo (ix1 q) from vec_at r q I.bo,
    show val_main_v57 (F := Ideal) (ix2 r q) = _ from one_at _,
    show val_main_v55 (F := Ideal) (ix2 r q) = _ from one_at _]
  exact logistic_expanded _

/-- The new hidden state. -/
theorem hid_at : val_main_v60 (F := Ideal) I.x I.h I.c I.Wx I.bx I.Wh I.bh I.wci I.wcf I.wco I.bi I.bf I.bc I.bo (ix2 r q)
    = hidAt I r q := by
  rw [val_main_v60_apply, val_main_v59_apply, gate_o I r q, cell_at I r q]
  rfl

/-- The rectified hidden state: the maximum with the broadcast float word of zero. -/
theorem relu_at : val_main_v61 (F := Ideal) I.x I.h I.c I.Wx I.bx I.Wh I.bh I.wci I.wcf I.wco I.bi I.bf I.bc I.bo (ix2 r q)
    = max (hidAt I r q) (Ideal.ofBits .f32 0x00000000#32) := by
  rw [val_main_v61_apply, hid_at I r q, val_main_call0_v0_apply, val_main_call0_cst_apply]
  rfl

/-- The head: the product with the one column of the head's weights is a sum over the hidden units, and the bias
    has one entry. -/
theorem out_at : val_main_v65 (F := Ideal) I.x I.h I.c I.Wx I.bx I.Wh I.bh I.wci I.wcf I.wco I.bi I.bf I.bc I.bo I.Wl I.bl
      (ix2 r (0 : Fin 1))
    = outAt I r := by
  rw [val_main_v65_apply, val_main_v62_apply, val_main_v64_apply, val_main_v63_apply]
  have e0 : ∀ k, lidx_main_v62 (ix2 r (0 : Fin 1)) k = ix2 r k := fun k => by
    funext a; match a with | ⟨0, _⟩ => rfl | ⟨1, _⟩ => rfl
  have e1 : ∀ k, ridx_main_v62 (ix2 r (0 : Fin 1)) k = ix2 k (0 : Fin 1) := fun k => by
    funext a; match a with | ⟨0, _⟩ => rfl | ⟨1, _⟩ => rfl
  have e2 : idx_main_v63 (idx_main_v64 (ix2 r (0 : Fin 1))) = ix1 (0 : Fin 1) := by
    funext a; match a with | ⟨0, _⟩ => rfl
  simp only [e0, e1, e2, relu_at I r]
  rfl

end Stages

/-! ### The three results -/

variable (x0 : (⟨S1000000x16, .f32⟩ : BufTy).Contents (Elt Ideal)) (x3 x4 : (⟨S1000000x32, .f32⟩ : BufTy).Contents (Elt Ideal))
  (x5 : (⟨S16x128, .f32⟩ : BufTy).Contents (Elt Ideal)) (x6 : (⟨S128, .f32⟩ : BufTy).Contents (Elt Ideal))
  (x7 : (⟨S32x128, .f32⟩ : BufTy).Contents (Elt Ideal)) (x8 : (⟨S128, .f32⟩ : BufTy).Contents (Elt Ideal))
  (x9 x10 x11 x12 x13 x14 x15 : (⟨S32, .f32⟩ : BufTy).Contents (Elt Ideal))
  (x16 : (⟨S32x1, .f32⟩ : BufTy).Contents (Elt Ideal)) (x17 : (⟨S1, .f32⟩ : BufTy).Contents (Elt Ideal))

/-- The reference's sixteen float arguments as the cell's inputs (the edge list and edge weights are not read). -/
def inputs : Inputs := ⟨x0, x3, x4, x5, x6, x7, x8, x9, x10, x11, x12, x13, x14, x15, x16, x17⟩

/-- The new cell state the reference returns is C. -/
theorem ref_cell : val_main_v45 (F := Ideal) x0 x3 x4 x5 x6 x7 x8 x9 x10 x12 x13 x14
    = cellArr (inputs x0 x3 x4 x5 x6 x7 x8 x9 x10 x11 x12 x13 x14 x15 x16 x17) := by
  funext i
  obtain ⟨r, q, rfl⟩ : ∃ r q, i = ix2 r q := ⟨i 0, i 1, eq_ix2 i⟩
  exact cell_at (inputs x0 x3 x4 x5 x6 x7 x8 x9 x10 x11 x12 x13 x14 x15 x16 x17) r q

/-- The new hidden state the reference returns is H. -/
theorem ref_hid : val_main_v60 (F := Ideal) x0 x3 x4 x5 x6 x7 x8 x9 x10 x11 x12 x13 x14 x15
    = hidArr (inputs x0 x3 x4 x5 x6 x7 x8 x9 x10 x11 x12 x13 x14 x15 x16 x17) := by
  funext i
  obtain ⟨r, q, rfl⟩ : ∃ r q, i = ix2 r q := ⟨i 0, i 1, eq_ix2 i⟩
  exact hid_at (inputs x0 x3 x4 x5 x6 x7 x8 x9 x10 x11 x12 x13 x14 x15 x16 x17) r q

/-- The head's output the reference returns is out. -/
theorem ref_out : val_main_v65 (F := Ideal) x0 x3 x4 x5 x6 x7 x8 x9 x10 x11 x12 x13 x14 x15 x16 x17
    = outArr (inputs x0 x3 x4 x5 x6 x7 x8 x9 x10 x11 x12 x13 x14 x15 x16 x17) := by
  funext i
  obtain ⟨r, z, rfl⟩ : ∃ r z, i = ix2 r z := ⟨i 0, i 1, eq_ix2 i⟩
  obtain rfl : z = 0 := Fin.eq_zero z
  exact out_at (inputs x0 x3 x4 x5 x6 x7 x8 x9 x10 x11 x12 x13 x14 x15 x16 x17) r

end Cert.ReferenceIdeal.RefValue

end
-- ==== Proof.LibPlainMatmul.lean ====
/-
  A MATRIX PRODUCT READ AT AN ENTRY. A kernel's `tpu.matmul` of an m × k matrix by a k × n matrix (the left operand
  contracted on its columns, the right one on its rows, no batch axis) that accumulates into the zero splat is, at the
  ideal values and at entry (a, b), the sum over the contracted coordinate c of A(a, c) · B(c, b): the accumulator adds
  the extended real 0, and the contraction's one-axis index set is the range of c.
-/
import Idealize.ShloMosaic.Lib.ValueIdx
import Idealize.ShloMosaic.PureOps.Ideal.Laws

open scoped BigOperators

noncomputable section

namespace Idealize.ShloMosaic.PlainMatmul

open Idealize.ShloMosaic Idealize.ShloMosaic.ValueIdx

variable {m k n : Nat} {φ₁ φ₂ : FTy}

/-- The dimension numbers of a plain product, whatever the evidence that they are well formed. -/
def dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ :=
  ⟨[1], [0], [0], [1], [], [], w⟩

/-- At output entry (a, b) and contracted coordinate c the left operand is read at (a, c). -/
theorem lhsIdx_dims (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have hc := contrEquiv1_symm_val (dims w) k rfl rfl c
  funext ax; apply Fin.ext
  match ax with
  | ⟨0, _⟩ => simp [DotDims.lhsIdx, dims]; rfl
  | ⟨1, _⟩ => simp [DotDims.lhsIdx, dims]; exact hc

/-- … and the right operand at (c, b). -/
theorem rhsIdx_dims (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have hc := contrEquiv1_symm_val (dims w) k rfl rfl c
  funext ax; apply Fin.ext
  match ax with
  | ⟨0, _⟩ => simp [DotDims.rhsIdx, dims]; exact hc
  | ⟨1, _⟩ => simp [DotDims.rhsIdx, dims]; rfl

/-- The product into the zero splat, at entry (a, b): the sum of the products along row a of A and column b of B. -/
theorem matmul_zero_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  show FloatOps.matmul (dims w) prec A B (constant ⟨2, ![m, n]⟩ .f32 0x00000000#32) (ix2 a b) = _
  rw [Ideal.matmul_constant_zero_apply, ← Equiv.sum_comp (contrEquiv1 (dims w) k rfl rfl).symm]
  refine Finset.sum_congr rfl fun c _ => ?_
  rw [lhsIdx_dims, rhsIdx_dims]

end Idealize.ShloMosaic.PlainMatmul

end
-- ==== Proof.Payload.lean ====
/-
  THE KERNEL BODY'S THREE STORED VALUES, READ AT AN ENTRY.

  At a grid point the body holds a block of 4000 rows of x, h and c and the whole of every weight array. It forms
  the 4000 × 128 gate matrix  ((x·Wx + bx) + h·Wh) + bh  — two products into a zero accumulator, each bias row
  broadcast down the rows —, cuts it into four 4000 × 32 column bands (offsets 0, 32, 64, 96), and from those,
  entry by entry, the new cell state, the new hidden state, and the head  max(H, 0)·Wl + bl  (a third product, of the
  rectified hidden block with the 32 × 1 weight column). Read at an entry (p, q) of the block these are the LSTM cell
  functions of `Cell.lean` at the gate values of row p; the only algebra is that the four-term gate sum, added one
  term after the other, is the sum bracketed as two biased products.
-/
import proofs.«106267_j15693810499716_1_alg».proof.Proof.Cell
import proofs.«106267_j15693810499716_1_alg».proof.Proof.LibPlainMatmul
import proofs.«106267_j15693810499716_1_alg».proof.Proof.Gen.KernelIdeal.Frame
import Idealize.ShloMosaic.Lib.Pipeline.Value
import Idealize.ShloMosaic.Lib.ValueIdx
import Idealize.ShloMosaic.PureOps.Ideal.Laws

open scoped BigOperators

noncomputable section

namespace Cert.KernelIdeal.Payload

open Cert.KernelIdeal Cert.KernelIdeal.Gen Idealize.ShloMosaic Idealize.ShloMosaic.ValueIdx Cert.LstmCell

/-! ## Layout operations of the body, read at an entry -/

/-- A [1, 128] row broadcast down 4000 rows, read at (p, j), is the row's entry j. -/
theorem rowBcast128_apply (v : Vec Ideal S1x128 .f32) (p : Fin 4000) (j : Fin 128) :
    broadcastTo S4000x128 (shapeCast S1x128 v shapeCasts_S1x128_S1x128) broadcasts_S1x128_S4000x128 (ix2 p j)
      = v (ix2 (0 : Fin 1) j) := by
  rw [shapeCast_self]
  exact broadcastTo_apply v _ (ix2 p j) (ix2 (0 : Fin 1) j) (fun a => match a with
    | ⟨0, _⟩ => by show 0 = (if (1 : Nat) = 1 then 0 else p.val); rw [if_pos rfl]
    | ⟨1, _⟩ => by show j.val = (if (128 : Nat) = 1 then 0 else j.val); rw [if_neg (by decide)])

/-- A [1, 32] row broadcast down 4000 rows, read at (p, q), is the row's entry q. -/
theorem rowBcast32_apply (v : Vec Ideal S1x32 .f32) (p : Fin 4000) (q : Fin 32) :
    broadcastTo S4000x32 (shapeCast S1x32 v shapeCasts_S1x32_S1x32) broadcasts_S1x32_S4000x32 (ix2 p q)
      = v (ix2 (0 : Fin 1) q) := by
  rw [shapeCast_self]
  exact broadcastTo_apply v _ (ix2 p q) (ix2 (0 : Fin 1) q) (fun a => match a with
    | ⟨0, _⟩ => by show 0 = (if (1 : Nat) = 1 then 0 else p.val); rw [if_pos rfl]
    | ⟨1, _⟩ => by show q.val = (if (32 : Nat) = 1 then 0 else q.val); rw [if_neg (by decide)])

/-- The [1, 1] bias broadcast down 4000 rows, read at (p, 0), is its one entry. -/
theorem rowBcast1_apply (v : Vec Ideal S1x1 .f32) (p : Fin 4000) :
    broadcastTo S4000x1 (shapeCast S1x1 v shapeCasts_S1x1_S1x1) broadcasts_S1x1_S4000x1 (ix2 p (0 : Fin 1))
      = v (ix2 (0 : Fin 1) (0 : Fin 1)) := by
  rw [shapeCast_self]
  exact broadcastTo_apply v _ (ix2 p (0 : Fin 1)) (ix2 (0 : Fin 1) (0 : Fin 1)) (fun a => match a with
    | ⟨0, _⟩ => by show 0 = (if (1 : Nat) = 1 then 0 else p.val); rw [if_pos rfl]
    | ⟨1, _⟩ => by show 0 = (if (1 : Nat) = 1 then 0 else 0); rw [if_pos rfl])

/-- Column band g of the gate matrix, read at (p, q), is the matrix at column 32·g + q. -/
theorem band0_apply (G : FVec Ideal S4000x128 .f32) (p : Fin 4000) (q : Fin 32) :
    extractStridedSlice S4000x32 ![0, 0] G slices_S4000x128_o0_0_S4000x32 (ix2 p q) = G (ix2 p (col 0 q)) :=
  extractStridedSlice_apply ![0, 0] G _ (ix2 p q) (ix2 p (col 0 q)) (fun a => match a with
    | ⟨0, _⟩ => by show p.val = 0 + p.val; omega
    | ⟨1, _⟩ => by show 32 * 0 + q.val = 0 + q.val; omega)
theorem band1_apply (G : FVec Ideal S4000x128 .f32) (p : Fin 4000) (q : Fin 32) :
    extractStridedSlice S4000x32 ![0, 32] G slices_S4000x128_o0_32_S4000x32 (ix2 p q) = G (ix2 p (col 1 q)) :=
  extractStridedSlice_apply ![0, 32] G _ (ix2 p q) (ix2 p (col 1 q)) (fun a => match a with
    | ⟨0, _⟩ => by show p.val = 0 + p.val; omega
    | ⟨1, _⟩ => by show 32 * 1 + q.val = 32 + q.val; omega)
theorem band2_apply (G : FVec Ideal S4000x128 .f32) (p : Fin 4000) (q : Fin 32) :
    extractStridedSlice S4000x32 ![0, 64] G slices_S4000x128_o0_64_S4000x32 (ix2 p q) = G (ix2 p (col 2 q)) :=
  extractStridedSlice_apply ![0, 64] G _ (ix2 p q) (ix2 p (col 2 q)) (fun a => match a with
    | ⟨0, _⟩ => by show p.val = 0 + p.val; omega
    | ⟨1, _⟩ => by show 32 * 2 + q.val = 64 + q.val; omega)
theorem band3_apply (G : FVec Ideal S4000x128 .f32) (p : Fin 4000) (q : Fin 32) :
    extractStridedSlice S4000x32 ![0, 96] G slices_S4000x128_o0_96_S4000x32 (ix2 p q) = G (ix2 p (col 3 q)) :=
  extractStridedSlice_apply ![0, 96] G _ (ix2 p q) (ix2 p (col 3 q)) (fun a => match a with
    | ⟨0, _⟩ => by show p.val = 0 + p.val; omega
    | ⟨1, _⟩ => by show 32 * 3 + q.val = 96 + q.val; omega)

/-! ## The gate matrix -/

section Gates
variable (x : Vec Ideal S4000x16 .f32) (h : Vec Ideal S4000x32 .f32) (Wx : Vec Ideal S16x128 .f32) (Wh : Vec Ideal S32x128 .f32)
  (bx bh : Vec Ideal S1x128 .f32)

/-- Gate pre-activation of block row p at gate column j, from the blocks. -/
def gateK (p : Fin 4000) (j : Fin 128) : EReal :=
  pre4 (∑ k : Fin 16, x (ix2 p k) * Wx (ix2 k j)) (bx (ix2 (0 : Fin 1) j)) (∑ k : Fin 32, h (ix2 p k) * Wh (ix2 k j)) (bh (ix2 (0 : Fin 1) j))

/-- The body's gate matrix at (p, j): its four terms added one after the other are the bracketed sum. -/
theorem gates_apply (p : Fin 4000) (j : Fin 128) :
    k0_pay1 (F := Ideal) x h Wx Wh bx bh (ix2 p j) = gateK x h Wx Wh bx bh p j := by
  unfold gateK
  rw [← pre4_eq_seq]
  show ((matmul (F := Ideal) dot_S4000x16_S16x128_S4000x128_1_0_0_1_n_n none (truncf .bf16 x bitsLt_bf16_f32) (truncf .bf16 Wx bitsLt_bf16_f32) (constant S4000x128 .f32 0x00000000#32) (ix2 p j)
        + broadcastTo S4000x128 (shapeCast S1x128 bx shapeCasts_S1x128_S1x128) broadcasts_S1x128_S4000x128 (ix2 p j))
        + matmul (F := Ideal) dot_S4000x32_S32x128_S4000x128_1_0_0_1_n_n none (truncf .bf16 h bitsLt_bf16_f32) (truncf .bf16 Wh bitsLt_bf16_f32) (constant S4000x128 .f32 0x00000000#32) (ix2 p j))
        + broadcastTo S4000x128 (shapeCast S1x128 bh shapeCasts_S1x128_S1x128) broadcasts_S1x128_S4000x128 (ix2 p j) = _
  rw [PlainMatmul.matmul_zero_apply dot_S4000x16_S16x128_S4000x128_1_0_0_1_n_n dot_S4000x16_S16x128_S4000x128_1_0_0_1_n_n.wf rfl,
    PlainMatmul.matmul_zero_apply dot_S4000x32_S32x128_S4000x128_1_0_0_1_n_n dot_S4000x32_S32x128_S4000x128_1_0_0_1_n_n.wf rfl,
    rowBcast128_apply, rowBcast128_apply]
  rfl

end Gates

/-! ## The new cell state, the new hidden state and the head -/

section Cell
variable (x : Vec Ideal S4000x16 .f32) (h : Vec Ideal S4000x32 .f32) (Wx : Vec Ideal S16x128 .f32) (Wh : Vec Ideal S32x128 .f32)
  (bx bh : Vec Ideal S1x128 .f32) (c : Vec Ideal S4000x32 .f32) (wci wcf wco bi bf bc bo : Vec Ideal S1x32 .f32)
  (Wl : Vec Ideal S32x1 .f32) (bl : Vec Ideal S1x1 .f32)

/-- C at block entry (p, q), from the blocks. -/
def cellK (p : Fin 4000) (q : Fin 32) : EReal :=
  newCell (gateK x h Wx Wh bx bh p (col 0 q)) (gateK x h Wx Wh bx bh p (col 1 q)) (gateK x h Wx Wh bx bh p (col 2 q))
    (c (ix2 p q)) (wci (ix2 (0 : Fin 1) q)) (wcf (ix2 (0 : Fin 1) q)) (bi (ix2 (0 : Fin 1) q)) (bf (ix2 (0 : Fin 1) q)) (bc (ix2 (0 : Fin 1) q))

/-- H at block entry (p, q), from the blocks. -/
def hidK (p : Fin 4000) (q : Fin 32) : EReal :=
  newHidden (gateK x h Wx Wh bx bh p (col 3 q)) (wco (ix2 (0 : Fin 1) q)) (bo (ix2 (0 : Fin 1) q)) (cellK x h Wx Wh bx bh c wci wcf bi bf bc p q)

/-- out at block row p, from the blocks. -/
def outK (p : Fin 4000) : EReal :=
  (∑ k : Fin 32, max (hidK x h Wx Wh bx bh c wci wcf wco bi bf bc bo p k) (Ideal.ofBits .f32 0x00000000#32) * Wl (ix2 k (0 : Fin 1)))
    + bl (ix2 (0 : Fin 1) (0 : Fin 1))

/-- The value stored to the cell-state window, at (p, q). -/
theorem cellPay_apply (p : Fin 4000) (q : Fin 32) :
    k0_pay7 (F := Ideal) (k0_pay2 x h Wx Wh bx bh) (k0_pay3 x h Wx Wh bx bh) c (k0_pay5 x h Wx Wh bx bh c wci bi) (k0_pay6 wcf) bf bc (ix2 p q)
      = cellK x h Wx Wh bx bh c wci wcf bi bf bc p q := by
  show Ideal.logistic ((extractStridedSlice S4000x32 ![0, 32] (k0_pay1 (F := Ideal) x h Wx Wh bx bh) slices_S4000x128_o0_32_S4000x32 (ix2 p q)
          + broadcastTo S4000x32 (shapeCast S1x32 wcf shapeCasts_S1x32_S1x32) broadcasts_S1x32_S4000x32 (ix2 p q) * c (ix2 p q))
          + broadcastTo S4000x32 (shapeCast S1x32 bf shapeCasts_S1x32_S1x32) broadcasts_S1x32_S4000x32 (ix2 p q)) * c (ix2 p q)
      + Ideal.logistic ((extractStridedSlice S4000x32 ![0, 0] (k0_pay1 (F := Ideal) x h Wx Wh bx bh) slices_S4000x128_o0_0_S4000x32 (ix2 p q)
          + broadcastTo S4000x32 (shapeCast S1x32 wci shapeCasts_S1x32_S1x32) broadcasts_S1x32_S4000x32 (ix2 p q) * c (ix2 p q))
          + broadcastTo S4000x32 (shapeCast S1x32 bi shapeCasts_S1x32_S1x32) broadcasts_S1x32_S4000x32 (ix2 p q))
        * Ideal.tanh (extractStridedSlice S4000x32 ![0, 64] (k0_pay1 (F := Ideal) x h Wx Wh bx bh) slices_S4000x128_o0_64_S4000x32 (ix2 p q)
          + broadcastTo S4000x32 (shapeCast S1x32 bc shapeCasts_S1x32_S1x32) broadcasts_S1x32_S4000x32 (ix2 p q)) = _
  rw [band0_apply, band1_apply, band2_apply, rowBcast32_apply, rowBcast32_apply, rowBcast32_apply, rowBcast32_apply, rowBcast32_apply,
    gates_apply, gates_apply, gates_apply]
  rfl

/-- The value stored to the hidden-state window, at (p, q). -/
theorem hidPay_apply (p : Fin 4000) (q : Fin 32) :
    k0_pay8 (F := Ideal) (k0_pay2 x h Wx Wh bx bh) (k0_pay3 x h Wx Wh bx bh) (k0_pay4 x h Wx Wh bx bh) c (k0_pay5 x h Wx Wh bx bh c wci bi) (k0_pay6 wcf) bf bc wco bo (ix2 p q)
      = hidK x h Wx Wh bx bh c wci wcf wco bi bf bc bo p q := by
  show Ideal.logistic ((extractStridedSlice S4000x32 ![0, 96] (k0_pay1 (F := Ideal) x h Wx Wh bx bh) slices_S4000x128_o0_96_S4000x32 (ix2 p q)
          + broadcastTo S4000x32 (shapeCast S1x32 wco shapeCasts_S1x32_S1x32) broadcasts_S1x32_S4000x32 (ix2 p q)
            * k0_pay7 (F := Ideal) (k0_pay2 x h Wx Wh bx bh) (k0_pay3 x h Wx Wh bx bh) c (k0_pay5 x h Wx Wh bx bh c wci bi) (k0_pay6 wcf) bf bc (ix2 p q))
          + broadcastTo S4000x32 (shapeCast S1x32 bo shapeCasts_S1x32_S1x32) broadcasts_S1x32_S4000x32 (ix2 p q))
        * Ideal.tanh (k0_pay7 (F := Ideal) (k0_pay2 x h Wx Wh bx bh) (k0_pay3 x h Wx Wh bx bh) c (k0_pay5 x h Wx Wh bx bh c wci bi) (k0_pay6 wcf) bf bc (ix2 p q)) = _
  rw [cellPay_apply, band3_apply, rowBcast32_apply, rowBcast32_apply, gates_apply]
  rfl

/-- The value stored to the head's window, at (p, 0). -/
theorem outPay_apply (p : Fin 4000) :
    k0_pay9 (F := Ideal) (k0_pay2 x h Wx Wh bx bh) (k0_pay3 x h Wx Wh bx bh) (k0_pay4 x h Wx Wh bx bh) c (k0_pay5 x h Wx Wh bx bh c wci bi) (k0_pay6 wcf) bf bc wco bo Wl bl (ix2 p (0 : Fin 1))
      = outK x h Wx Wh bx bh c wci wcf wco bi bf bc bo Wl bl p := by
  show matmul (F := Ideal) dot_S4000x32_S32x1_S4000x1_1_0_0_1_n_n none
        (truncf .bf16 (maximumf (k0_pay8 (F := Ideal) (k0_pay2 x h Wx Wh bx bh) (k0_pay3 x h Wx Wh bx bh) (k0_pay4 x h Wx Wh bx bh) c (k0_pay5 x h Wx Wh bx bh c wci bi) (k0_pay6 wcf) bf bc wco bo)
          (broadcast S4000x32 (Scalar.ofBits .f32 0x00000000#32))) bitsLt_bf16_f32)
        (truncf .bf16 Wl bitsLt_bf16_f32) (constant S4000x1 .f32 0x00000000#32) (ix2 p (0 : Fin 1))
      + broadcastTo S4000x1 (shapeCast S1x1 bl shapeCasts_S1x1_S1x1) broadcasts_S1x1_S4000x1 (ix2 p (0 : Fin 1)) = _
  rw [PlainMatmul.matmul_zero_apply dot_S4000x32_S32x1_S4000x1_1_0_0_1_n_n dot_S4000x32_S32x1_S4000x1_1_0_0_1_n_n.wf rfl, rowBcast1_apply]
  unfold outK
  refine congrArg (· + bl (ix2 (0 : Fin 1) (0 : Fin 1))) (Finset.sum_congr rfl fun k _ => ?_)
  show max (k0_pay8 (F := Ideal) (k0_pay2 x h Wx Wh bx bh) (k0_pay3 x h Wx Wh bx bh) (k0_pay4 x h Wx Wh bx bh) c (k0_pay5 x h Wx Wh bx bh c wci bi) (k0_pay6 wcf) bf bc wco bo (ix2 p k))
      (Ideal.ofBits .f32 0x00000000#32) * Wl (ix2 k (0 : Fin 1)) = _
  rw [hidPay_apply]

end Cell

end Cert.KernelIdeal.Payload

end
-- ==== Proof.Blocks.lean ====
/-
  THE KERNEL'S BLOCKS. The grid has 250 points; at point t the three row-blocked inputs (node features, hidden state,
  cell state) are rows 4000·t … 4000·t + 3999 of their arrays, every other input window is its whole array at every
  point (the bias and peephole vectors after a host reshape from [n] to [1, n]), and each of the three outputs' blocks
  is again rows 4000·t … 4000·t + 3999. The 250 row blocks tile the 1,000,000 rows.
  Every coordinate of a block's entry in its array is (block index) × (block extent) + (the coordinate inside the block).
-/
import proofs.«106267_j15693810499716_1_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- Row p of block t among the million rows. -/
def row (t : Fin cfg0.N) (p : Fin 4000) : Fin 1000000 :=
  ⟨t.val * 4000 + p.val, by have h : t.val < 250 := Nat.lt_of_lt_of_eq t.isLt N_0
                            have := p.isLt; omega⟩

/-! ## The input windows' blocks, each under a name of its literal type -/

abbrev xB (c : Dev nD) (t : Fin cfg0.N) : Vec Ideal S4000x16 .f32 := iblk m c 0 t
abbrev hB (c : Dev nD) (t : Fin cfg0.N) : Vec Ideal S4000x32 .f32 := iblk m c 1 t
abbrev cB (c : Dev nD) (t : Fin cfg0.N) : Vec Ideal S4000x32 .f32 := iblk m c 2 t
abbrev WxB (c : Dev nD) (t : Fin cfg0.N) : Vec Ideal S16x128 .f32 := iblk m c 3 t
abbrev bxB (c : Dev nD) (t : Fin cfg0.N) : Vec Ideal S1x128 .f32 := iblk m c 4 t
abbrev WhB (c : Dev nD) (t : Fin cfg0.N) : Vec Ideal S32x128 .f32 := iblk m c 5 t
abbrev bhB (c : Dev nD) (t : Fin cfg0.N) : Vec Ideal S1x128 .f32 := iblk m c 6 t
abbrev wciB (c : Dev nD) (t : Fin cfg0.N) : Vec Ideal S1x32 .f32 := iblk m c 7 t
abbrev wcfB (c : Dev nD) (t : Fin cfg0.N) : Vec Ideal S1x32 .f32 := iblk m c 8 t
abbrev wcoB (c : Dev nD) (t : Fin cfg0.N) : Vec Ideal S1x32 .f32 := iblk m c 9 t
abbrev biB (c : Dev nD) (t : Fin cfg0.N) : Vec Ideal S1x32 .f32 := iblk m c 10 t
abbrev bfB (c : Dev nD) (t : Fin cfg0.N) : Vec Ideal S1x32 .f32 := iblk m c 11 t
abbrev bcB (c : Dev nD) (t : Fin cfg0.N) : Vec Ideal S1x32 .f32 := iblk m c 12 t
abbrev boB (c : Dev nD) (t : Fin cfg0.N) : Vec Ideal S1x32 .f32 := iblk m c 13 t
abbrev WlB (c : Dev nD) (t : Fin cfg0.N) : Vec Ideal S32x1 .f32 := iblk m c 14 t
abbrev blB (c : Dev nD) (t : Fin cfg0.N) : Vec Ideal S1x1 .f32 := iblk m c 15 t

/-! ## The index maps over the 250 points: the row axis of a row-blocked window moves with the point, all else stays at 0 -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)
theorem idx8 : ∀ t : Fin cfg0.N, win0_8.index t 0 = 0 ∧ win0_8.index t 1 = 0 :=
  (by decide +kernel : ∀ t : Fin grid0.N, win0_8.index t 0 = 0 ∧ win0_8.index t 1 = 0)
theorem idx9 : ∀ t : Fin cfg0.N, win0_9.index t 0 = 0 ∧ win0_9.index t 1 = 0 :=
  (by decide +kernel : ∀ t : Fin grid0.N, win0_9.index t 0 = 0 ∧ win0_9.index t 1 = 0)
theorem idx10 : ∀ t : Fin cfg0.N, win0_10.index t 0 = 0 ∧ win0_10.index t 1 = 0 :=
  (by decide +kernel : ∀ t : Fin grid0.N, win0_10.index t 0 = 0 ∧ win0_10.index t 1 = 0)
theorem idx11 : ∀ t : Fin cfg0.N, win0_11.index t 0 = 0 ∧ win0_11.index t 1 = 0 :=
  (by decide +kernel : ∀ t : Fin grid0.N, win0_11.index t 0 = 0 ∧ win0_11.index t 1 = 0)
theorem idx12 : ∀ t : Fin cfg0.N, win0_12.index t 0 = 0 ∧ win0_12.index t 1 = 0 :=
  (by decide +kernel : ∀ t : Fin grid0.N, win0_12.index t 0 = 0 ∧ win0_12.index t 1 = 0)
theorem idx13 : ∀ t : Fin cfg0.N, win0_13.index t 0 = 0 ∧ win0_13.index t 1 = 0 :=
  (by decide +kernel : ∀ t : Fin grid0.N, win0_13.index t 0 = 0 ∧ win0_13.index t 1 = 0)
theorem idx14 : ∀ t : Fin cfg0.N, win0_14.index t 0 = 0 ∧ win0_14.index t 1 = 0 :=
  (by decide +kernel : ∀ t : Fin grid0.N, win0_14.index t 0 = 0 ∧ win0_14.index t 1 = 0)
theorem idx15 : ∀ t : Fin cfg0.N, win0_15.index t 0 = 0 ∧ win0_15.index t 1 = 0 :=
  (by decide +kernel : ∀ t : Fin grid0.N, win0_15.index t 0 = 0 ∧ win0_15.index t 1 = 0)
theorem idx16 : ∀ t : Fin cfg0.N, win0_16.index t 0 = t.val ∧ win0_16.index t 1 = 0 :=
  (by decide +kernel : ∀ t : Fin grid0.N, win0_16.index t 0 = t.val ∧ win0_16.index t 1 = 0)
theorem idx17 : ∀ t : Fin cfg0.N, win0_17.index t 0 = t.val ∧ win0_17.index t 1 = 0 :=
  (by decide +kernel : ∀ t : Fin grid0.N, win0_17.index t 0 = t.val ∧ win0_17.index t 1 = 0)
theorem idx18 : ∀ t : Fin cfg0.N, win0_18.index t 0 = t.val ∧ win0_18.index t 1 = 0 :=
  (by decide +kernel : ∀ t : Fin grid0.N, win0_18.index t 0 = t.val ∧ win0_18.index t 1 = 0)

/-! ## The vectors recast to one-row matrices before the grid runs: each holds its argument in the same row-major order -/

theorem V_v0 (c : Dev nD) : (V m c main_v0 : S1x128.Idx → EReal)
    = shapeCast S1x128 (m ((c : Thread nD τ).loc main_arg6) : S128.Idx → EReal) shapeCasts_S128_S1x128 := by
  dsimp only [Gen.V, Gen.hostOps0]; after_results; rfl
theorem V_v1 (c : Dev nD) : (V m c main_v1 : S1x128.Idx → EReal)
    = shapeCast S1x128 (m ((c : Thread nD τ).loc main_arg8) : S128.Idx → EReal) shapeCasts_S128_S1x128 := by
  dsimp only [Gen.V, Gen.hostOps0]; after_results; rfl
theorem V_v2 (c : Dev nD) : (V m c main_v2 : S1x32.Idx → EReal)
    = shapeCast S1x32 (m ((c : Thread nD τ).loc main_arg9) : S32.Idx → EReal) shapeCasts_S32_S1x32 := by
  dsimp only [Gen.V, Gen.hostOps0]; after_results; rfl
theorem V_v3 (c : Dev nD) : (V m c main_v3 : S1x32.Idx → EReal)
    = shapeCast S1x32 (m ((c : Thread nD τ).loc main_arg10) : S32.Idx → EReal) shapeCasts_S32_S1x32 := by
  dsimp only [Gen.V, Gen.hostOps0]; after_results; rfl
theorem V_v4 (c : Dev nD) : (V m c main_v4 : S1x32.Idx → EReal)
    = shapeCast S1x32 (m ((c : Thread nD τ).loc main_arg11) : S32.Idx → EReal) shapeCasts_S32_S1x32 := by
  dsimp only [Gen.V, Gen.hostOps0]; after_results; rfl
theorem V_v5 (c : Dev nD) : (V m c main_v5 : S1x32.Idx → EReal)
    = shapeCast S1x32 (m ((c : Thread nD τ).loc main_arg12) : S32.Idx → EReal) shapeCasts_S32_S1x32 := by
  dsimp only [Gen.V, Gen.hostOps0]; after_results; rfl
theorem V_v6 (c : Dev nD) : (V m c main_v6 : S1x32.Idx → EReal)
    = shapeCast S1x32 (m ((c : Thread nD τ).loc main_arg13) : S32.Idx → EReal) shapeCasts_S32_S1x32 := by
  dsimp only [Gen.V, Gen.hostOps0]; after_results; rfl
theorem V_v7 (c : Dev nD) : (V m c main_v7 : S1x32.Idx → EReal)
    = shapeCast S1x32 (m ((c : Thread nD τ).loc main_arg14) : S32.Idx → EReal) shapeCasts_S32_S1x32 := by
  dsimp only [Gen.V, Gen.hostOps0]; after_results; rfl
theorem V_v8 (c : Dev nD) : (V m c main_v8 : S1x32.Idx → EReal)
    = shapeCast S1x32 (m ((c : Thread nD τ).loc main_arg15) : S32.Idx → EReal) shapeCasts_S32_S1x32 := by
  dsimp only [Gen.V, Gen.hostOps0]; after_results; rfl
theorem V_v9 (c : Dev nD) : (V m c main_v9 : S1x1.Idx → EReal)
    = shapeCast S1x1 (m ((c : Thread nD τ).loc main_arg17) : S1.Idx → EReal) shapeCasts_S1_S1x1 := by
  dsimp only [Gen.V, Gen.hostOps0]; after_results; rfl

/-- A vector of 128 recast to one row, read at an entry of row 0: entry (0, j) has row-major position j. -/
theorem cast128_at (x : S128.Idx → EReal) (k : S1x128.Idx) (j : Fin 128) (h0 : (k 0).val = 0) (h1 : (k 1).val = j.val) :
    shapeCast S1x128 x shapeCasts_S128_S1x128 k = x (ix1 j) := by
  refine shapeCast_apply (s := S128) (t := S1x128) _ _ _ (ix1 j) ?_
  rw [Shape.rowMajor_val_one, Shape.rowMajor_val_two]
  show j.val = (k 0).val * 128 + (k 1).val
  omega

/-- The same for a vector of 32. -/
theorem cast32_at (x : S32.Idx → EReal) (k : S1x32.Idx) (q : Fin 32) (h0 : (k 0).val = 0) (h1 : (k 1).val = q.val) :
    shapeCast S1x32 x shapeCasts_S32_S1x32 k = x (ix1 q) := by
  refine shapeCast_apply (s := S32) (t := S1x32) _ _ _ (ix1 q) ?_
  rw [Shape.rowMajor_val_one, Shape.rowMajor_val_two]
  show q.val = (k 0).val * 32 + (k 1).val
  omega

/-- And for the one-entry vector. -/
theorem cast1_at (x : S1.Idx → EReal) (k : S1x1.Idx) (h0 : (k 0).val = 0) (h1 : (k 1).val = 0) :
    shapeCast S1x1 x shapeCasts_S1_S1x1 k = x (ix1 (0 : Fin 1)) := by
  refine shapeCast_apply (s := S1) (t := S1x1) _ _ _ (ix1 (0 : Fin 1)) ?_
  rw [Shape.rowMajor_val_one, Shape.rowMajor_val_two]
  show (0 : Fin 1).val = (k 0).val * 1 + (k 1).val
  rw [h0, h1]; rfl

/-! ## Each block read at an entry is the argument array read at the entry's place in it -/

theorem xB_apply (c : Dev nD) (t : Fin cfg0.N) (p : Fin 4000) (k : Fin 16) :
    xB m c t (ix2 p k) = (m ((c : Thread nD τ).loc main_arg0) : S1000000x16.Idx → EReal) (ix2 (row t p) k) := by
  obtain ⟨e0, e1⟩ := idx0 t
  unfold xB iblk
  rw [View.read_apply]
  show V m c main_arg0 _ = _
  rw [V_main_arg0]
  congr 1
  funext a
  apply Fin.ext
  match a with
  | ⟨0, _⟩ => show win0_0.index t 0 * 4000 + 1 * p.val = t.val * 4000 + p.val; rw [e0]; omega
  | ⟨1, _⟩ => show win0_0.index t 1 * 16 + 1 * k.val = k.val; rw [e1]; omega
theorem hB_apply (c : Dev nD) (t : Fin cfg0.N) (p : Fin 4000) (k : Fin 32) :
    hB m c t (ix2 p k) = (m ((c : Thread nD τ).loc main_arg3) : S1000000x32.Idx → EReal) (ix2 (row t p) k) := by
  obtain ⟨e0, e1⟩ := idx1 t
  unfold hB iblk
  rw [View.read_apply]
  show V m c main_arg3 _ = _
  rw [V_main_arg3]
  congr 1
  funext a
  apply Fin.ext
  match a with
  | ⟨0, _⟩ => show win0_1.index t 0 * 4000 + 1 * p.val = t.val * 4000 + p.val; rw [e0]; omega
  | ⟨1, _⟩ => show win0_1.index t 1 * 32 + 1 * k.val = k.val; rw [e1]; omega
theorem cB_apply (c : Dev nD) (t : Fin cfg0.N) (p : Fin 4000) (q : Fin 32) :
    cB m c t (ix2 p q) = (m ((c : Thread nD τ).loc main_arg4) : S1000000x32.Idx → EReal) (ix2 (row t p) q) := by
  obtain ⟨e0, e1⟩ := idx2 t
  unfold cB iblk
  rw [View.read_apply]
  show V m c main_arg4 _ = _
  rw [V_main_arg4]
  congr 1
  funext a
  apply Fin.ext
  match a with
  | ⟨0, _⟩ => show win0_2.index t 0 * 4000 + 1 * p.val = t.val * 4000 + p.val; rw [e0]; omega
  | ⟨1, _⟩ => show win0_2.index t 1 * 32 + 1 * q.val = q.val; rw [e1]; omega
theorem WxB_apply (c : Dev nD) (t : Fin cfg0.N) (k : Fin 16) (j : Fin 128) :
    WxB m c t (ix2 k j) = (m ((c : Thread nD τ).loc main_arg5) : S16x128.Idx → EReal) (ix2 k j) := by
  obtain ⟨e0, e1⟩ := idx3 t
  unfold WxB iblk
  rw [View.read_apply]
  show V m c main_arg5 _ = _
  rw [V_main_arg5]
  congr 1
  funext a
  apply Fin.ext
  match a with
  | ⟨0, _⟩ => show win0_3.index t 0 * 16 + 1 * k.val = k.val; rw [e0]; omega
  | ⟨1, _⟩ => show win0_3.index t 1 * 128 + 1 * j.val = j.val; rw [e1]; omega
theorem bxB_apply (c : Dev nD) (t : Fin cfg0.N) (j : Fin 128) :
    bxB m c t (ix2 (0 : Fin 1) j) = (m ((c : Thread nD τ).loc main_arg6) : S128.Idx → EReal) (ix1 j) := by
  obtain ⟨e0, e1⟩ := idx4 t
  unfold bxB iblk
  rw [View.read_apply]
  show (V m c main_v0 : S1x128.Idx → EReal) _ = _
  rw [V_v0]
  refine cast128_at _ _ j ?_ ?_
  · show win0_4.index t 0 * 1 + 1 * (0 : Fin 1).val = 0; rw [e0]; rfl
  · show win0_4.index t 1 * 128 + 1 * j.val = j.val; rw [e1]; omega
theorem WhB_apply (c : Dev nD) (t : Fin cfg0.N) (k : Fin 32) (j : Fin 128) :
    WhB m c t (ix2 k j) = (m ((c : Thread nD τ).loc main_arg7) : S32x128.Idx → EReal) (ix2 k j) := by
  obtain ⟨e0, e1⟩ := idx5 t
  unfold WhB iblk
  rw [View.read_apply]
  show V m c main_arg7 _ = _
  rw [V_main_arg7]
  congr 1
  funext a
  apply Fin.ext
  match a with
  | ⟨0, _⟩ => show win0_5.index t 0 * 32 + 1 * k.val = k.val; rw [e0]; omega
  | ⟨1, _⟩ => show win0_5.index t 1 * 128 + 1 * j.val = j.val; rw [e1]; omega
theorem bhB_apply (c : Dev nD) (t : Fin cfg0.N) (j : Fin 128) :
    bhB m c t (ix2 (0 : Fin 1) j) = (m ((c : Thread nD τ).loc main_arg8) : S128.Idx → EReal) (ix1 j) := by
  obtain ⟨e0, e1⟩ := idx6 t
  unfold bhB iblk
  rw [View.read_apply]
  show (V m c main_v1 : S1x128.Idx → EReal) _ = _
  rw [V_v1]
  refine cast128_at _ _ j ?_ ?_
  · show win0_6.index t 0 * 1 + 1 * (0 : Fin 1).val = 0; rw [e0]; rfl
  · show win0_6.index t 1 * 128 + 1 * j.val = j.val; rw [e1]; omega
theorem wciB_apply (c : Dev nD) (t : Fin cfg0.N) (q : Fin 32) :
    wciB m c t (ix2 (0 : Fin 1) q) = (m ((c : Thread nD τ).loc main_arg9) : S32.Idx → EReal) (ix1 q) := by
  obtain ⟨e0, e1⟩ := idx7 t
  unfold wciB iblk
  rw [View.read_apply]
  show (V m c main_v2 : S1x32.Idx → EReal) _ = _
  rw [V_v2]
  refine cast32_at _ _ q ?_ ?_
  · show win0_7.index t 0 * 1 + 1 * (0 : Fin 1).val = 0; rw [e0]; rfl
  · show win0_7.index t 1 * 32 + 1 * q.val = q.val; rw [e1]; omega
theorem wcfB_apply (c : Dev nD) (t : Fin cfg0.N) (q : Fin 32) :
    wcfB m c t (ix2 (0 : Fin 1) q) = (m ((c : Thread nD τ).loc main_arg10) : S32.Idx → EReal) (ix1 q) := by
  obtain ⟨e0, e1⟩ := idx8 t
  unfold wcfB iblk
  rw [View.read_apply]
  show (V m c main_v3 : S1x32.Idx → EReal) _ = _
  rw [V_v3]
  refine cast32_at _ _ q ?_ ?_
  · show win0_8.index t 0 * 1 + 1 * (0 : Fin 1).val = 0; rw [e0]; rfl
  · show win0_8.index t 1 * 32 + 1 * q.val = q.val; rw [e1]; omega
theorem wcoB_apply (c : Dev nD) (t : Fin cfg0.N) (q : Fin 32) :
    wcoB m c t (ix2 (0 : Fin 1) q) = (m ((c : Thread nD τ).loc main_arg11) : S32.Idx → EReal) (ix1 q) := by
  obtain ⟨e0, e1⟩ := idx9 t
  unfold wcoB iblk
  rw [View.read_apply]
  show (V m c main_v4 : S1x32.Idx → EReal) _ = _
  rw [V_v4]
  refine cast32_at _ _ q ?_ ?_
  · show win0_9.index t 0 * 1 + 1 * (0 : Fin 1).val = 0; rw [e0]; rfl
  · show win0_9.index t 1 * 32 + 1 * q.val = q.val; rw [e1]; omega
theorem biB_apply (c : Dev nD) (t : Fin cfg0.N) (q : Fin 32) :
    biB m c t (ix2 (0 : Fin 1) q) = (m ((c : Thread nD τ).loc main_arg12) : S32.Idx → EReal) (ix1 q) := by
  obtain ⟨e0, e1⟩ := idx10 t
  unfold biB iblk
  rw [View.read_apply]
  show (V m c main_v5 : S1x32.Idx → EReal) _ = _
  rw [V_v5]
  refine cast32_at _ _ q ?_ ?_
  · show win0_10.index t 0 * 1 + 1 * (0 : Fin 1).val = 0; rw [e0]; rfl
  · show win0_10.index t 1 * 32 + 1 * q.val = q.val; rw [e1]; omega
theorem bfB_apply (c : Dev nD) (t : Fin cfg0.N) (q : Fin 32) :
    bfB m c t (ix2 (0 : Fin 1) q) = (m ((c : Thread nD τ).loc main_arg13) : S32.Idx → EReal) (ix1 q) := by
  obtain ⟨e0, e1⟩ := idx11 t
  unfold bfB iblk
  rw [View.read_apply]
  show (V m c main_v6 : S1x32.Idx → EReal) _ = _
  rw [V_v6]
  refine cast32_at _ _ q ?_ ?_
  · show win0_11.index t 0 * 1 + 1 * (0 : Fin 1).val = 0; rw [e0]; rfl
  · show win0_11.index t 1 * 32 + 1 * q.val = q.val; rw [e1]; omega
theorem bcB_apply (c : Dev nD) (t : Fin cfg0.N) (q : Fin 32) :
    bcB m c t (ix2 (0 : Fin 1) q) = (m ((c : Thread nD τ).loc main_arg14) : S32.Idx → EReal) (ix1 q) := by
  obtain ⟨e0, e1⟩ := idx12 t
  unfold bcB iblk
  rw [View.read_apply]
  show (V m c main_v7 : S1x32.Idx → EReal) _ = _
  rw [V_v7]
  refine cast32_at _ _ q ?_ ?_
  · show win0_12.index t 0 * 1 + 1 * (0 : Fin 1).val = 0; rw [e0]; rfl
  · show win0_12.index t 1 * 32 + 1 * q.val = q.val; rw [e1]; omega
theorem boB_apply (c : Dev nD) (t : Fin cfg0.N) (q : Fin 32) :
    boB m c t (ix2 (0 : Fin 1) q) = (m ((c : Thread nD τ).loc main_arg15) : S32.Idx → EReal) (ix1 q) := by
  obtain ⟨e0, e1⟩ := idx13 t
  unfold boB iblk
  rw [View.read_apply]
  show (V m c main_v8 : S1x32.Idx → EReal) _ = _
  rw [V_v8]
  refine cast32_at _ _ q ?_ ?_
  · show win0_13.index t 0 * 1 + 1 * (0 : Fin 1).val = 0; rw [e0]; rfl
  · show win0_13.index t 1 * 32 + 1 * q.val = q.val; rw [e1]; omega
theorem WlB_apply (c : Dev nD) (t : Fin cfg0.N) (k : Fin 32) :
    WlB m c t (ix2 k (0 : Fin 1)) = (m ((c : Thread nD τ).loc main_arg16) : S32x1.Idx → EReal) (ix2 k (0 : Fin 1)) := by
  obtain ⟨e0, e1⟩ := idx14 t
  unfold WlB iblk
  rw [View.read_apply]
  show V m c main_arg16 _ = _
  rw [V_main_arg16]
  congr 1
  funext a
  apply Fin.ext
  match a with
  | ⟨0, _⟩ => show win0_14.index t 0 * 32 + 1 * k.val = k.val; rw [e0]; omega
  | ⟨1, _⟩ => show win0_14.index t 1 * 1 + 1 * (0 : Fin 1).val = (0 : Fin 1).val; rw [e1]; rfl
theorem blB_apply (c : Dev nD) (t : Fin cfg0.N) :
    blB m c t (ix2 (0 : Fin 1) (0 : Fin 1)) = (m ((c : Thread nD τ).loc main_arg17) : S1.Idx → EReal) (ix1 (0 : Fin 1)) := by
  obtain ⟨e0, e1⟩ := idx15 t
  unfold blB iblk
  rw [View.read_apply]
  show (V m c main_v9 : S1x1.Idx → EReal) _ = _
  rw [V_v9]
  refine cast1_at _ _ ?_ ?_
  · show win0_15.index t 0 * 1 + 1 * (0 : Fin 1).val = 0; rw [e0]; rfl
  · show win0_15.index t 1 * 1 + 1 * (0 : Fin 1).val = 0; rw [e1]; rfl

/-! ## Where an output block's entry lies in its array -/

theorem emb16 (t : Fin cfg0.N) (y : S4000x1.Idx) :
    ((cfg0.win 16).blk t).view.emb y = (ix2 (row t (y 0)) (y 1) : S1000000x1.Idx) := by
  obtain ⟨e0, e1⟩ := idx16 t
  funext a
  apply Fin.ext
  match a with
  | ⟨0, _⟩ => show win0_16.index t 0 * 4000 + 1 * (y 0).val = t.val * 4000 + (y 0).val; rw [e0]; omega
  | ⟨1, _⟩ => show win0_16.index t 1 * 1 + 1 * (y 1).val = (y 1).val; rw [e1]; omega
theorem emb17 (t : Fin cfg0.N) (y : S4000x32.Idx) :
    ((cfg0.win 17).blk t).view.emb y = (ix2 (row t (y 0)) (y 1) : S1000000x32.Idx) := by
  obtain ⟨e0, e1⟩ := idx17 t
  funext a
  apply Fin.ext
  match a with
  | ⟨0, _⟩ => show win0_17.index t 0 * 4000 + 1 * (y 0).val = t.val * 4000 + (y 0).val; rw [e0]; omega
  | ⟨1, _⟩ => show win0_17.index t 1 * 32 + 1 * (y 1).val = (y 1).val; rw [e1]; omega
theorem emb18 (t : Fin cfg0.N) (y : S4000x32.Idx) :
    ((cfg0.win 18).blk t).view.emb y = (ix2 (row t (y 0)) (y 1) : S1000000x32.Idx) := by
  obtain ⟨e0, e1⟩ := idx18 t
  funext a
  apply Fin.ext
  match a with
  | ⟨0, _⟩ => show win0_18.index t 0 * 4000 + 1 * (y 0).val = t.val * 4000 + (y 0).val; rw [e0]; omega
  | ⟨1, _⟩ => show win0_18.index t 1 * 32 + 1 * (y 1).val = (y 1).val; rw [e1]; omega

/-! ## The output blocks cover their arrays: row r lies in block r / 4000 -/

/-- An index of the array lies in point t's block iff each coordinate lies in the block's range on its axis. -/
theorem mem_blk16 (t : Fin cfg0.N) (i : S1000000x1.Idx) :
    i ∈ ((cfg0.win 16).blk t).view.set ↔ ∀ a : Fin 2, win0_16.index t a * S4000x1.size a ≤ (i a).val ∧ (i a).val < win0_16.index t a * S4000x1.size a + S4000x1.size a := by
  show i ∈ ((View.whole main_v10_0).slice (win0_16.rect t)).set ↔ _
  rw [View.set_slice_whole, Rect.mem_set_unit]
  exact Iff.rfl
theorem mem_blk17 (t : Fin cfg0.N) (i : S1000000x32.Idx) :
    i ∈ ((cfg0.win 17).blk t).view.set ↔ ∀ a : Fin 2, win0_17.index t a * S4000x32.size a ≤ (i a).val ∧ (i a).val < win0_17.index t a * S4000x32.size a + S4000x32.size a := by
  show i ∈ ((View.whole main_v10_1).slice (win0_17.rect t)).set ↔ _
  rw [View.set_slice_whole, Rect.mem_set_unit]
  exact Iff.rfl
theorem mem_blk18 (t : Fin cfg0.N) (i : S1000000x32.Idx) :
    i ∈ ((cfg0.win 18).blk t).view.set ↔ ∀ a : Fin 2, win0_18.index t a * S4000x32.size a ≤ (i a).val ∧ (i a).val < win0_18.index t a * S4000x32.size a + S4000x32.size a := by
  show i ∈ ((View.whole main_v10_2).slice (win0_18.rect t)).set ↔ _
  rw [View.set_slice_whole, Rect.mem_set_unit]
  exact Iff.rfl

theorem cover16 (i : S1000000x1.Idx) :
    ∃ t : Fin cfg0.N, (cfg0.win 16).flush t = true ∧ i ∈ ((cfg0.win 16).blk t).view.set := by
  have hi0 : (i 0).val < 1000000 := (i 0).isLt
  have hi1 : (i 1).val < 1 := (i 1).isLt
  have ht : (i 0).val / 4000 < cfg0.N := Nat.lt_of_lt_of_eq (by omega) N_0.symm
  obtain ⟨e0, e1⟩ := idx16 ⟨(i 0).val / 4000, ht⟩
  refine ⟨⟨(i 0).val / 4000, ht⟩, flush0_16 _, ?_⟩
  rw [mem_blk16]
  intro a
  match a with
  | ⟨0, _⟩ =>
    show win0_16.index ⟨(i 0).val / 4000, ht⟩ 0 * 4000 ≤ (i 0).val ∧ (i 0).val < win0_16.index ⟨(i 0).val / 4000, ht⟩ 0 * 4000 + 4000
    rw [e0]; show (i 0).val / 4000 * 4000 ≤ (i 0).val ∧ (i 0).val < (i 0).val / 4000 * 4000 + 4000; omega
  | ⟨1, _⟩ =>
    show win0_16.index ⟨(i 0).val / 4000, ht⟩ 1 * 1 ≤ (i 1).val ∧ (i 1).val < win0_16.index ⟨(i 0).val / 4000, ht⟩ 1 * 1 + 1
    rw [e1]; omega
theorem cover17 (i : S1000000x32.Idx) :
    ∃ t : Fin cfg0.N, (cfg0.win 17).flush t = true ∧ i ∈ ((cfg0.win 17).blk t).view.set := by
  have hi0 : (i 0).val < 1000000 := (i 0).isLt
  have hi1 : (i 1).val < 32 := (i 1).isLt
  have ht : (i 0).val / 4000 < cfg0.N := Nat.lt_of_lt_of_eq (by omega) N_0.symm
  obtain ⟨e0, e1⟩ := idx17 ⟨(i 0).val / 4000, ht⟩
  refine ⟨⟨(i 0).val / 4000, ht⟩, flush0_17 _, ?_⟩
  rw [mem_blk17]
  intro a
  match a with
  | ⟨0, _⟩ =>
    show win0_17.index ⟨(i 0).val / 4000, ht⟩ 0 * 4000 ≤ (i 0).val ∧ (i 0).val < win0_17.index ⟨(i 0).val / 4000, ht⟩ 0 * 4000 + 4000
    rw [e0]; show (i 0).val / 4000 * 4000 ≤ (i 0).val ∧ (i 0).val < (i 0).val / 4000 * 4000 + 4000; omega
  | ⟨1, _⟩ =>
    show win0_17.index ⟨(i 0).val / 4000, ht⟩ 1 * 32 ≤ (i 1).val ∧ (i 1).val < win0_17.index ⟨(i 0).val / 4000, ht⟩ 1 * 32 + 32
    rw [e1]; omega
theorem cover18 (i : S1000000x32.Idx) :
    ∃ t : Fin cfg0.N, (cfg0.win 18).flush t = true ∧ i ∈ ((cfg0.win 18).blk t).view.set := by
  have hi0 : (i 0).val < 1000000 := (i 0).isLt
  have hi1 : (i 1).val < 32 := (i 1).isLt
  have ht : (i 0).val / 4000 < cfg0.N := Nat.lt_of_lt_of_eq (by omega) N_0.symm
  obtain ⟨e0, e1⟩ := idx18 ⟨(i 0).val / 4000, ht⟩
  refine ⟨⟨(i 0).val / 4000, ht⟩, flush0_18 _, ?_⟩
  rw [mem_blk18]
  intro a
  match a with
  | ⟨0, _⟩ =>
    show win0_18.index ⟨(i 0).val / 4000, ht⟩ 0 * 4000 ≤ (i 0).val ∧ (i 0).val < win0_18.index ⟨(i 0).val / 4000, ht⟩ 0 * 4000 + 4000
    rw [e0]; show (i 0).val / 4000 * 4000 ≤ (i 0).val ∧ (i 0).val < (i 0).val / 4000 * 4000 + 4000; omega
  | ⟨1, _⟩ =>
    show win0_18.index ⟨(i 0).val / 4000, ht⟩ 1 * 32 ≤ (i 1).val ∧ (i 1).val < win0_18.index ⟨(i 0).val / 4000, ht⟩ 1 * 32 + 32
    rw [e1]; omega

end Cert.KernelIdeal.Blocks

end
-- ==== Proof.KValue.lean ====
/-
  WHAT THE KERNEL'S THREE RESULT ARRAYS HOLD AFTER THE RUN.

  Grid point t stores, into rows 4000·t … 4000·t + 3999 of each result, the body's value computed from rows
  4000·t … of x, h, c and the whole weight arrays; by `Payload.lean` that value at block entry (p, q) is the LSTM cell
  function at the gate values of block row p, and by `Blocks.lean` block row p of point t is row 4000·t + p of the
  arguments. So what point t writes back is the block of the cell function of the ARGUMENTS through point t's rows,
  and as the 250 blocks tile the million rows each result array ends as that function of the arguments:
  the head's output, the new hidden state and the new cell state of `Cell.lean`.
-/
import proofs.«106267_j15693810499716_1_alg».proof.Proof.Cell
import proofs.«106267_j15693810499716_1_alg».proof.Proof.Payload
import proofs.«106267_j15693810499716_1_alg».proof.Proof.Blocks
import proofs.«106267_j15693810499716_1_alg».proof.Proof.Gen.KernelIdeal.Value
import Idealize.ShloMosaic.Lib.Pipeline.Value
import Idealize.ShloMosaic.Lib.ValueIdx

open scoped BigOperators

noncomputable section

namespace Cert.KernelIdeal.KValue

open Cert.KernelIdeal Cert.KernelIdeal.Gen Idealize.ShloMosaic Idealize.ShloMosaic.TcCoe Idealize.SL.Sem Idealize.ShloMosaic.ValueIdx
open Cert.LstmCell Cert.KernelIdeal.Payload Cert.KernelIdeal.Blocks
open Idealize.ShloMosaic.Pipeline (Dat)

variable (m : (ℓ : Loc nD τ sig) → Buf (Elt Ideal) ℓ) (ρ : Dev nD → PrngReg)

/-- The kernel's sixteen float arguments on core c as the cell's inputs (the edge list and edge weights are not read). -/
def inputs (c : Dev nD) : Inputs :=
  ⟨m ((c : Thread nD τ).loc main_arg0), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8),
   m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14), m ((c : Thread nD τ).loc main_arg15),
   m ((c : Thread nD τ).loc main_arg16), m ((c : Thread nD τ).loc main_arg17)⟩

theorem hz : (![0, 0] : Fin 2 → Nat) = fun _ => 0 := funext fun a => by fin_cases a <;> rfl

/-! ## What the body leaves in each result window's buffer, at an entry -/

section Body
variable (x0 : Vec Ideal S4000x16 .f32) (x1 : Vec Ideal S4000x32 .f32) (x2 : Vec Ideal S4000x32 .f32) (x3 : Vec Ideal S16x128 .f32) (x4 : Vec Ideal S1x128 .f32) (x5 : Vec Ideal S32x128 .f32) (x6 : Vec Ideal S1x128 .f32) (x7 : Vec Ideal S1x32 .f32) (x8 : Vec Ideal S1x32 .f32) (x9 : Vec Ideal S1x32 .f32) (x10 : Vec Ideal S1x32 .f32) (x11 : Vec Ideal S1x32 .f32) (x12 : Vec Ideal S1x32 .f32) (x13 : Vec Ideal S1x32 .f32) (x14 : Vec Ideal S32x1 .f32) (x15 : Vec Ideal S1x1 .f32)

theorem cellBlock_apply (p : Fin 4000) (q : Fin 32) :
    out0_18 (F := Ideal) x0 x1 x2 x3 x4 x5 x6 x7 x8 x9 x10 x11 x12 x13 x14 x15 (ix2 p q) = cellK x0 x1 x3 x5 x4 x6 x2 x7 x8 x10 x11 x12 p q := by
  unfold out0_18
  rw [View.canon_unit_zero hz]
  simp only [View.ld_unit_zero (S := S4000x16) hz, View.ld_unit_zero (S := S4000x32) hz, View.ld_unit_zero (S := S16x128) hz, View.ld_unit_zero (S := S32x128) hz, View.ld_unit_zero (S := S1x128) hz, View.ld_unit_zero (S := S1x32) hz, View.ld_unit_zero (S := S32x1) hz, View.ld_unit_zero (S := S1x1) hz]
  exact cellPay_apply x0 x1 x3 x5 x4 x6 x2 x7 x8 x10 x11 x12 p q

theorem hidBlock_apply (p : Fin 4000) (q : Fin 32) :
    out0_17 (F := Ideal) x0 x1 x2 x3 x4 x5 x6 x7 x8 x9 x10 x11 x12 x13 x14 x15 (ix2 p q) = hidK x0 x1 x3 x5 x4 x6 x2 x7 x8 x9 x10 x11 x12 x13 p q := by
  unfold out0_17
  rw [View.canon_unit_zero hz]
  simp only [View.ld_unit_zero (S := S4000x16) hz, View.ld_unit_zero (S := S4000x32) hz, View.ld_unit_zero (S := S16x128) hz, View.ld_unit_zero (S := S32x128) hz, View.ld_unit_zero (S := S1x128) hz, View.ld_unit_zero (S := S1x32) hz, View.ld_unit_zero (S := S32x1) hz, View.ld_unit_zero (S := S1x1) hz]
  exact hidPay_apply x0 x1 x3 x5 x4 x6 x2 x7 x8 x9 x10 x11 x12 x13 p q

theorem outBlock_apply (p : Fin 4000) :
    out0_16 (F := Ideal) x0 x1 x2 x3 x4 x5 x6 x7 x8 x9 x10 x11 x12 x13 x14 x15 (ix2 p (0 : Fin 1)) = outK x0 x1 x3 x5 x4 x6 x2 x7 x8 x9 x10 x11 x12 x13 x14 x15 p := by
  unfold out0_16
  rw [View.canon_unit_zero hz]
  simp only [View.ld_unit_zero (S := S4000x16) hz, View.ld_unit_zero (S := S4000x32) hz, View.ld_unit_zero (S := S16x128) hz, View.ld_unit_zero (S := S32x128) hz, View.ld_unit_zero (S := S1x128) hz, View.ld_unit_zero (S := S1x32) hz, View.ld_unit_zero (S := S32x1) hz, View.ld_unit_zero (S := S1x1) hz]
  exact outPay_apply x0 x1 x3 x5 x4 x6 x2 x7 x8 x9 x10 x11 x12 x13 x14 x15 p

end Body

/-! ## From block rows to rows of the arguments -/

theorem gateK_eq (c : Dev nD) (t : Fin cfg0.N) (p : Fin 4000) (j : Fin 128) :
    gateK (xB m c t) (hB m c t) (WxB m c t) (WhB m c t) (bxB m c t) (bhB m c t) p j = pre (inputs m c) (row t p) j := by
  unfold gateK pre
  simp only [xB_apply, hB_apply, WxB_apply, WhB_apply, bxB_apply, bhB_apply]
  rfl

theorem cellK_eq (c : Dev nD) (t : Fin cfg0.N) (p : Fin 4000) (q : Fin 32) :
    cellK (xB m c t) (hB m c t) (WxB m c t) (WhB m c t) (bxB m c t) (bhB m c t) (cB m c t) (wciB m c t) (wcfB m c t) (biB m c t) (bfB m c t) (bcB m c t) p q
      = cellAt (inputs m c) (row t p) q := by
  unfold cellK cellAt
  rw [gateK_eq, gateK_eq, gateK_eq, cB_apply, wciB_apply, wcfB_apply, biB_apply, bfB_apply, bcB_apply]
  rfl

theorem hidK_eq (c : Dev nD) (t : Fin cfg0.N) (p : Fin 4000) (q : Fin 32) :
    hidK (xB m c t) (hB m c t) (WxB m c t) (WhB m c t) (bxB m c t) (bhB m c t) (cB m c t) (wciB m c t) (wcfB m c t) (wcoB m c t) (biB m c t) (bfB m c t) (bcB m c t) (boB m c t) p q
      = hidAt (inputs m c) (row t p) q := by
  unfold hidK hidAt
  rw [gateK_eq, cellK_eq, wcoB_apply, boB_apply]
  rfl

theorem outK_eq (c : Dev nD) (t : Fin cfg0.N) (p : Fin 4000) :
    outK (xB m c t) (hB m c t) (WxB m c t) (WhB m c t) (bxB m c t) (bhB m c t) (cB m c t) (wciB m c t) (wcfB m c t) (wcoB m c t) (biB m c t) (bfB m c t) (bcB m c t) (boB m c t) (WlB m c t) (blB m c t) p
      = outAt (inputs m c) (row t p) := by
  unfold outK outAt
  rw [blB_apply]
  simp only [hidK_eq, WlB_apply]
  rfl

/-! ## What each point writes back is a block of the cell function of the arguments -/

theorem flushedCell (c : Dev nD) (t : Fin cfg0.N) :
    (dats m 0 c).flushed 18 t = ((cfg0.win 18).blk t).view.read (Elt Ideal) (cellArr (inputs m c)) := by
  rw [Value.flushed18]
  show (fun y : S4000x32.Idx => out0_18 (xB m c t) (hB m c t) (cB m c t) (WxB m c t) (bxB m c t) (WhB m c t) (bhB m c t) (wciB m c t) (wcfB m c t) (wcoB m c t) (biB m c t) (bfB m c t) (bcB m c t) (boB m c t) (WlB m c t) (blB m c t) y)
      = fun y : S4000x32.Idx => cellArr (inputs m c) (((cfg0.win 18).blk t).view.emb y)
  funext y
  obtain ⟨p, q, rfl⟩ : ∃ (p : Fin 4000) (q : Fin 32), y = ix2 p q := ⟨y 0, y 1, eq_ix2 y⟩
  rw [emb18]
  exact (cellBlock_apply (xB m c t) (hB m c t) (cB m c t) (WxB m c t) (bxB m c t) (WhB m c t) (bhB m c t) (wciB m c t) (wcfB m c t) (wcoB m c t) (biB m c t) (bfB m c t) (bcB m c t) (boB m c t) (WlB m c t) (blB m c t) p q).trans (cellK_eq m c t p q)

theorem flushedHid (c : Dev nD) (t : Fin cfg0.N) :
    (dats m 0 c).flushed 17 t = ((cfg0.win 17).blk t).view.read (Elt Ideal) (hidArr (inputs m c)) := by
  rw [Value.flushed17]
  show (fun y : S4000x32.Idx => out0_17 (xB m c t) (hB m c t) (cB m c t) (WxB m c t) (bxB m c t) (WhB m c t) (bhB m c t) (wciB m c t) (wcfB m c t) (wcoB m c t) (biB m c t) (bfB m c t) (bcB m c t) (boB m c t) (WlB m c t) (blB m c t) y)
      = fun y : S4000x32.Idx => hidArr (inputs m c) (((cfg0.win 17).blk t).view.emb y)
  funext y
  obtain ⟨p, q, rfl⟩ : ∃ (p : Fin 4000) (q : Fin 32), y = ix2 p q := ⟨y 0, y 1, eq_ix2 y⟩
  rw [emb17]
  exact (hidBlock_apply (xB m c t) (hB m c t) (cB m c t) (WxB m c t) (bxB m c t) (WhB m c t) (bhB m c t) (wciB m c t) (wcfB m c t) (wcoB m c t) (biB m c t) (bfB m c t) (bcB m c t) (boB m c t) (WlB m c t) (blB m c t) p q).trans (hidK_eq m c t p q)

theorem flushedOut (c : Dev nD) (t : Fin cfg0.N) :
    (dats m 0 c).flushed 16 t = ((cfg0.win 16).blk t).view.read (Elt Ideal) (outArr (inputs m c)) := by
  rw [Value.flushed16]
  show (fun y : S4000x1.Idx => out0_16 (xB m c t) (hB m c t) (cB m c t) (WxB m c t) (bxB m c t) (WhB m c t) (bhB m c t) (wciB m c t) (wcfB m c t) (wcoB m c t) (biB m c t) (bfB m c t) (bcB m c t) (boB m c t) (WlB m c t) (blB m c t) y)
      = fun y : S4000x1.Idx => outArr (inputs m c) (((cfg0.win 16).blk t).view.emb y)
  funext y
  obtain ⟨p, q, rfl⟩ : ∃ (p : Fin 4000) (q : Fin 1), y = ix2 p q := ⟨y 0, y 1, eq_ix2 y⟩
  obtain rfl : q = 0 := Subsingleton.elim _ _
  rw [emb16]
  exact (outBlock_apply (xB m c t) (hB m c t) (cB m c t) (WxB m c t) (bxB m c t) (WhB m c t) (bhB m c t) (wciB m c t) (wcfB m c t) (wcoB m c t) (biB m c t) (bfB m c t) (bcB m c t) (boB m c t) (WlB m c t) (blB m c t) p).trans (outK_eq m c t p)

/-! ## The arrays after the run -/

theorem finalCell (c : Dev nD) : (dats m 0 c).arrAt 18 cfg0.N = cellArr (inputs m c) :=
  (dats m 0 c).arrAt_eq_of_cover 18 (cellArr (inputs m c)) (fun t _ => flushedCell m c t) cover18

theorem finalHid (c : Dev nD) : (dats m 0 c).arrAt 17 cfg0.N = hidArr (inputs m c) :=
  (dats m 0 c).arrAt_eq_of_cover 17 (hidArr (inputs m c)) (fun t _ => flushedHid m c t) cover17

theorem finalOut (c : Dev nD) : (dats m 0 c).arrAt 16 cfg0.N = outArr (inputs m c) :=
  (dats m 0 c).arrAt_eq_of_cover 16 (outArr (inputs m c)) (fun t _ => flushedOut m c t) cover16

/-- The kernel's run: every execution ends with the three results at the head's output, the new hidden state and the
    new cell state of the arguments, and the arguments as they were. -/
theorem run : θ_run defs (onTc (τ := τ) (main (F := Ideal))) ⟨m, fun _ => 0, ρ⟩ fun r => ∀ c : Dev nD,
      r.2.mem ((c : Thread nD τ).loc main_v10_0) = outArr (inputs m c)
      ∧ r.2.mem ((c : Thread nD τ).loc main_v10_1) = hidArr (inputs m c)
      ∧ r.2.mem ((c : Thread nD τ).loc main_v10_2) = cellArr (inputs m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17) :=
  (θ_run defs _ _).mono (fun r h c => ⟨(h c).1.trans (finalOut m c), (h c).2.1.trans (finalHid m c),
      (h c).2.2.1.trans (finalCell m c), (h c).2.2.2⟩)
    (Value.run_blocks m ρ)

end Cert.KernelIdeal.KValue

end
-- ==== Proof.lean ====
/-
  A graph-convolutional LSTM cell (Chebyshev convolutions of order one, so four dense gate layers; peephole
  connections; a rectified linear head), as one fused kernel over 250 blocks of 4000 nodes, against its plain
  array-level definition.

  Both programs, read on the extended reals, compute the function of `Proof/Cell.lean`: for node r and hidden unit q the
  gate pre-activations pre(r, ·) = (x·Wx + bx) + (h·Wh + bh), the new cell state C = σ(·)·c + σ(·)·tanh(·), the new
  hidden state H = σ(·)·tanh(C), and out = max(H, 0)·Wl + bl. The kernel adds the four gate terms one after the other
  where the array-level program brackets them in two pairs (associativity of +, true on the extended reals as they
  stand), it applies the logistic function where the array-level program spells 1 / (1 + e^(-z)) (one function), and
  it multiplies into a zero accumulator in reduced input precision where the array-level program contracts directly
  (one sum; a change of float format is the identity on the extended reals). No finiteness of the inputs is used.

  `Proof/RefValue.lean`: the array-level program's three results are that function of its arguments.
  `Proof/Payload.lean`, `Proof/Blocks.lean`, `Proof/KValue.lean`: so are the kernel's three result arrays after its run.
  The idealized kernel is the kernel's own text read on the extended reals (nothing was rewritten), so the
  idealization claim is trivial; the three frames are the runs themselves.
-/
import proofs.«106267_j15693810499716_1_alg».proof.Defs
import proofs.«106267_j15693810499716_1_alg».proof.Proof.Gen.Kernel
import proofs.«106267_j15693810499716_1_alg».proof.Proof.Gen.Kernel.Skeleton
import proofs.«106267_j15693810499716_1_alg».proof.Proof.Gen.Kernel.Launch
import proofs.«106267_j15693810499716_1_alg».proof.Proof.Gen.Kernel.Points
import proofs.«106267_j15693810499716_1_alg».proof.Proof.Gen.Kernel.Frame
import proofs.«106267_j15693810499716_1_alg».proof.Proof.Gen.KernelIdeal
import proofs.«106267_j15693810499716_1_alg».proof.Proof.Gen.KernelIdeal.Skeleton
import proofs.«106267_j15693810499716_1_alg».proof.Proof.Gen.KernelIdeal.Launch
import proofs.«106267_j15693810499716_1_alg».proof.Proof.Gen.KernelIdeal.Points
import proofs.«106267_j15693810499716_1_alg».proof.Proof.Gen.KernelIdeal.Frame
import proofs.«106267_j15693810499716_1_alg».proof.Proof.Gen.ReferenceIdeal
import proofs.«106267_j15693810499716_1_alg».proof.Proof.Gen.Pre_finite_inputs
import proofs.«106267_j15693810499716_1_alg».proof.Proof.Gen.KernelIdeal.Value
import proofs.«106267_j15693810499716_1_alg».proof.Proof.Gen.ReferenceIdeal.Run
import proofs.«106267_j15693810499716_1_alg».proof.Proof.Gen.ReferenceIdeal.Read
import proofs.«106267_j15693810499716_1_alg».proof.Proof.Cell
import proofs.«106267_j15693810499716_1_alg».proof.Proof.RefValue
import proofs.«106267_j15693810499716_1_alg».proof.Proof.KValue
import Idealize.ShloMosaic.Adequacy
import Idealize.ShloMosaic.Init

noncomputable section

namespace Cert.Proof

open Idealize.ShloMosaic Idealize.SL.Sem

namespace Claims

theorem frame_k : Cert.frame_Kernel := fun m ρ _ => Cert.Kernel.Gen.frame m ρ

theorem frame_ki : Cert.frame_KernelIdeal := fun m ρ _ => Cert.KernelIdeal.Gen.frame m ρ

/-- The array-level program's run, its three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- Nothing was rewritten between the kernel and its reading on the extended reals. -/
theorem preserves : Cert.preserves_Kernel_KernelIdeal := trivial

/-- The two programs' arguments agree, so they are the same inputs of the cell. -/
theorem inputs_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    Cert.ReferenceIdeal.RefValue.inputs (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17))
      = Cert.KernelIdeal.KValue.inputs m c := by
  unfold Cert.ReferenceIdeal.RefValue.inputs Cert.KernelIdeal.KValue.inputs
  rw [h0, h3, h4, h5, h6, h7, h8, h9, h10, h11, h12, h13, h14, h15, h16, h17]

/-- Run from memories that agree on the arguments, both programs end with the head's output, the new hidden state and
    the new cell state of those arguments. -/
theorem algebraic : Cert.algebraic_KernelIdeal_ReferenceIdeal := by
  intro m ρ m' ρ' _ hagree
  refine ⟨fun c => Cert.LstmCell.outArr (Cert.KernelIdeal.KValue.inputs m c), fun c => Cert.LstmCell.hidArr (Cert.KernelIdeal.KValue.inputs m c),
    fun c => Cert.LstmCell.cellArr (Cert.KernelIdeal.KValue.inputs m c), Cert.KernelIdeal.KValue.run m ρ, ?_⟩
  refine (θ_run Cert.ReferenceIdeal.defs _ _).mono (fun r h c => ?_) (Cert.ReferenceIdeal.Value.run (F := Ideal) m' ρ')
  obtain ⟨a0, a1, a2, a3, a4, a5, a6, a7, a8, a9, a10, a11, a12, a13, a14, a15, a16, a17⟩ := hagree c
  have hI := inputs_eq m m' c a0 a3 a4 a5 a6 a7 a8 a9 a10 a11 a12 a13 a14 a15 a16 a17
  refine ⟨?_, ?_, ?_, (h c).2.2.2⟩
  · rw [(h c).1, Cert.ReferenceIdeal.Read.val_main_v65_eq, Cert.ReferenceIdeal.RefValue.ref_out, hI]
  · rw [(h c).2.1, Cert.ReferenceIdeal.Read.val_main_v60_eq, Cert.ReferenceIdeal.RefValue.ref_hid
      (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)), hI]
  · refine (h c).2.2.1.trans ?_
    refine (Cert.ReferenceIdeal.Read.val_main_v45_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14))).trans ?_
    rw [Cert.ReferenceIdeal.RefValue.ref_cell
      (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)), hI]

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
